-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v3)) (v1 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_v2) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_v21) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x128 : Shape := ⟨2, ![1024, 128]⟩
abbrev S128x128 : Shape := ⟨2, ![128, 128]⟩
abbrev S128 : Shape := ⟨1, ![128]⟩
abbrev S128x1 : Shape := ⟨2, ![128, 1]⟩
abbrev S1 : Shape := ⟨1, ![1]⟩
abbrev S_ : Shape := ⟨0, ![]⟩

class Facts : Prop where
  bcast_S_S1024x128 : S_.BroadcastsInDim S1024x128 (![] : Fin 0 → Fin S1024x128.rank)
  reducesTo_S1024x128_S_d0_1 : S1024x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg4 : FVec F S1 .f32) (main_arg5 : FVec F S128x128 .f32) (main_arg6 : FVec F S128 .f32) (main_v13 : IVec S_ 1) (main_v16 : IVec S128x1 1) : IVec S_ 1 :=
  let main_c_5 : IVec S_ 1 := constantI S_ 1 1#1
  let main_v17 : IVec S_ 1 := (fun x v => Host.reduce IntOp.andi x v reducesTo_S128x1_S_d0_1 h_S_) main_v16 main_c_5
  let main_v18 : IVec S_ 1 := andi main_v13 main_v17
  let main_v19 : FVec F S1 .f32 := Host.absf main_arg4
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  let main_v24 : FVec F S128x128 .f32 := Host.absf main_arg5
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S1024x128 .f32) (main_arg1 : FVec F S128x128 .f32) (main_arg2 : FVec F S128 .f32) (main_arg3 : FVec F S128x1 .f32) (main_arg4 : FVec F S1 .f32) (main_arg5 : FVec F S128x128 .f32) (main_arg6 : FVec F S128 .f32) : IVec S_ 1 :=
  let main_v0 : FVec F S1024x128 .f32 := Host.absf main_arg0
  let main_cst : FVec F S_ .f32 := constant S_ .f32 0x7F800000#32
  let main_v1 : FVec F S1024x128 .f32 := broadcastInDim S1024x128 ![] bcast_S_S1024x128 main_cst
  let main_v2 : IVec S1024x128 1 := cmpf .olt main_v0 main_v1
  let main_c : IVec S_ 1 := constantI S_ 1 1#1
  let main_v3 : IVec S_ 1 := (fun x v => Host.reduce IntOp.andi x v reducesTo_S1024x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x1 .f32 := Host.absf main_arg3
  let main_cst_4 : FVec F S_ .f32 := constant S_ .f32 0x7F800000#32
  let main_v15 : FVec F S128x1 .f32 := broadcastInDim S128x1 ![] bcast_S_S128x1 main_cst_4
  let main_v16 : IVec S128x1 1 := cmpf .olt main_v14 main_v15
  fn_part1 (F := F) main_arg4 main_arg5 main_arg6 main_v13 main_v16
-- ==== Kernel.lean ====
abbrev S1024x128 : Shape := ⟨2, ![1024, 128]⟩
abbrev S128x128 : Shape := ⟨2, ![128, 128]⟩
abbrev S128 : Shape := ⟨1, ![128]⟩
abbrev S128x1 : Shape := ⟨2, ![128, 1]⟩
abbrev S1 : Shape := ⟨1, ![1]⟩
abbrev S1x1 : Shape := ⟨2, ![1, 1]⟩
abbrev S1024x1024 : Shape := ⟨2, ![1024, 1024]⟩
abbrev S64x128 : Shape := ⟨2, ![64, 128]⟩
abbrev S64x1x128 : Shape := ⟨3, ![64, 1, 128]⟩
abbrev S1x128x128 : Shape := ⟨3, ![1, 128, 128]⟩
abbrev S64x128x128 : Shape := ⟨3, ![64, 128, 128]⟩
abbrev S8192x128 : Shape := ⟨2, ![8192, 128]⟩
abbrev S1x1x128 : Shape := ⟨3, ![1, 1, 128]⟩
abbrev S1024 : Shape := ⟨1, ![1024]⟩
abbrev S1024x1 : Shape := ⟨2, ![1024, 1]⟩
abbrev S1x1024 : Shape := ⟨2, ![1, 1024]⟩
abbrev S1x128 : Shape := ⟨2, ![1, 128]⟩

abbrev nBuf : Space → Nat
  | .hbm => 11
  | .vmem => 15
  | .smem => 0
  | _ => 0

abbrev bufTy : (tb : Table) → Fin (tcTables nBuf tb) → BufTy
  | .hbm, ⟨0, _⟩ => ⟨S1024x128, .f32⟩
  | .hbm, ⟨1, _⟩ => ⟨S128x128, .f32⟩
  | .hbm, ⟨2, _⟩ => ⟨S128, .f32⟩
  | .hbm, ⟨3, _⟩ => ⟨S128x1, .f32⟩
  | .hbm, ⟨4, _⟩ => ⟨S1, .f32⟩
  | .hbm, ⟨5, _⟩ => ⟨S128x128, .f32⟩
  | .hbm, ⟨6, _⟩ => ⟨S128, .f32⟩
  | .hbm, ⟨7, _⟩ => ⟨S128, .f32⟩
  | .hbm, ⟨8, _⟩ => ⟨S1x1, .f32⟩
  | .hbm, ⟨9, _⟩ => ⟨S1024x1024, .f32⟩
  | .hbm, ⟨10, _⟩ => ⟨S1024x128, .f32⟩
  | .local _ .vmem, ⟨0, _⟩ => ⟨S64x128, .f32⟩
  | .local _ .vmem, ⟨1, _⟩ => ⟨S64x128, .f32⟩
  | .local _ .vmem, ⟨2, _⟩ => ⟨S128x128, .f32⟩
  | .local _ .vmem, ⟨3, _⟩ => ⟨S128x128, .f32⟩
  | .local _ .vmem, ⟨4, _⟩ => ⟨S128x128, .f32⟩
  | .local _ .vmem, ⟨5, _⟩ => ⟨S128, .f32⟩
  | .local _ .vmem, ⟨6, _⟩ => ⟨S128, .f32⟩
  | .local _ .vmem, ⟨7, _⟩ => ⟨S1x1, .f32⟩
  | .local _ .vmem, ⟨8, _⟩ => ⟨S64x128, .f32⟩
  | .local _ .vmem, ⟨9, _⟩ => ⟨S64x128, .f32⟩
  | .local _ .vmem, ⟨10, _⟩ => ⟨S1024x1024, .f32⟩
  | .local _ .vmem, ⟨11, _⟩ => ⟨S1024x128, .f32⟩
  | .local _ .vmem, ⟨12, _⟩ => ⟨S128x128, .f32⟩
  | .local _ .vmem, ⟨13, _⟩ => ⟨S128, .f32⟩
  | .local _ .vmem, ⟨14, _⟩ => ⟨S1024x128, .f32⟩
  | _, _ => ⟨S1024x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem1_0 : DmaSem sig := 11
abbrev cc1_sem2_0 : DmaSem sig := 12
abbrev cc1_sem3_0 : DmaSem sig := 13
abbrev cc1_sem4_0 : DmaSem sig := 14

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S64x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S64x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S1024x1024 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S1024x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1024x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

class Facts₀ : Prop where
  shapeCasts_S128x1_S128 : S128x1.ShapeCasts S128
  shapeCasts_S1_S1x1 : S1.ShapeCasts S1x1
  inb_S64x128_S64x128_0_0 : ∀ a, (![0, 0] : Fin 2 → Nat) a + S64x128.size a ≤ S64x128.size a
  h_S64x128 : 0 < S64x128.numel
  inb_S128x128_S128x128_0_0 : ∀ a, (![0, 0] : Fin 2 → Nat) a + S128x128.size a ≤ S128x128.size a
  h_S128x128 : 0 < S128x128.numel
  shapeCasts_S64x128_S64x1x128 : S64x128.ShapeCasts S64x1x128
  shapeCasts_S128x128_S1x128x128 : S128x128.ShapeCasts S1x128x128
  broadcasts_S64x1x128_S64x128x128 : S64x1x128.Broadcasts S64x128x128
  broadcasts_S1x128x128_S64x128x128 : S1x128x128.Broadcasts S64x128x128
  bitsLt_bf16_f32 : FTy.bits .bf16 < FTy.bits .f32
  shapeCasts_S64x128x128_S8192x128 : S64x128x128.ShapeCasts S8192x128
  shapeCasts_S8192x128_S64x128x128 : S8192x128.ShapeCasts S64x128x128
  inb_S128_S128_0 : ∀ a, (![0] : Fin 1 → Nat) a + S128.size a ≤ S128.size a
  h_S128 : 0 < S128.numel
  shapeCasts_S128_S1x1x128 : S128.ShapeCasts S1x1x128
  broadcasts_S1x1x128_S64x128x128 : S1x1x128.Broadcasts S64x128x128
  shapeCasts_S128_S128 : S128.ShapeCasts S128
  reduces_S64x128x128_S64x128 : S64x128x128.Reduces [2] S64x128
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S64x128 : S1x1.Broadcasts S64x128
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  reduces_S1024x1024_S1024 : S1024x1024.Reduces [1] S1024
  shapeCasts_S1024_S1024x1 : S1024.ShapeCasts S1024x1
  reduces_S1024x1024_S1024_2 : S1024x1024.Reduces [0] S1024
  shapeCasts_S1024_S1x1024 : S1024.ShapeCasts S1x1024
  broadcasts_S1024x1_S1024x1024 : S1024x1.Broadcasts S1024x1024
  broadcasts_S1x1024_S1024x1024 : S1x1024.Broadcasts S1024x1024
  inb_S1024x128_S1024x128_0_0 : ∀ a, (![0, 0] : Fin 2 → Nat) a + S1024x128.size a ≤ S1024x128.size a
  h_S1024x128 : 0 < S1024x128.numel
  shapeCasts_S128_S1x128 : S128.ShapeCasts S1x128
  broadcasts_S1x128_S1024x128 : S1x128.Broadcasts S1024x128
  dot_S8192x128_S128x128_S8192x128_1_0_0_1_n_n_wf : DotDims.WF S8192x128 S128x128 S8192x128 [1] [0] [0] [1] [] []
  dot_S1024x128_S128x128_S1024x128_1_0_0_1_n_n_wf : DotDims.WF S1024x128 S128x128 S1024x128 [1] [0] [0] [1] [] []
  dot_S1024x1024_S1024x128_S1024x128_1_0_0_1_n_n_wf : DotDims.WF S1024x1024 S1024x128 S1024x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x128.size a ≤ S1024x128.size a
  hwx0_0 : ∀ i : grid0.Coords, EltTy.bits .f32 = 32 ∨ (Rect.block (s := S1024x128) S64x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S1024x128.size a
  hwx0_1 : ∀ i : grid0.Coords, EltTy.bits .f32 = 32 ∨ (Rect.block (s := S1024x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1.size a ≤ S1x1.size a
  hwx0_5 : ∀ i : grid0.Coords, EltTy.bits .f32 = 32 ∨ (Rect.block (s := S1x1) S1x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S64x128.size a ≤ S1024x1024.size a
  hwx0_6 : ∀ i : grid0.Coords, EltTy.bits .f32 = 32 ∨ (Rect.block (s := S1024x1024) S64x128.size (cc0_transform_6 i) (hinb0_6 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S1024x1024.size a
  hwx1_0 : ∀ i : grid1.Coords, EltTy.bits .f32 = 32 ∨ (Rect.block (s := S1024x1024) S1024x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x128.size a ≤ S1024x128.size a
  hwx1_1 : ∀ i : grid1.Coords, EltTy.bits .f32 = 32 ∨ (Rect.block (s := S1024x128) S1024x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128.size a ≤ S128.size a
  hwx1_3 : ∀ i : grid1.Coords, EltTy.bits .f32 = 32 ∨ (Rect.block (s := S128) S128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1024x128.size a ≤ S1024x128.size a
  hwx1_4 : ∀ i : grid1.Coords, EltTy.bits .f32 = 32 ∨ (Rect.block (s := S1024x128) S1024x128.size (cc1_transform_4 i) (hinb1_4 i)).WholeWords (EltTy.packing .f32)

variable [Facts₀]

def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf
def dot_S1024x128_S128x128_S1024x128_1_0_0_1_n_n : DotDims S1024x128 S128x128 S1024x128 where
  lhsContracting := [1]
  rhsContracting := [0]
  lhsNonContracting := [0]
  rhsNonContracting := [1]
  lhsBatch := []
  rhsBatch := []
  wf := dot_S1024x128_S128x128_S1024x128_1_0_0_1_n_n_wf
def dot_S1024x1024_S1024x128_S1024x128_1_0_0_1_n_n : DotDims S1024x1024 S1024x128 S1024x128 where
  lhsContracting := [1]
  rhsContracting := [0]
  lhsNonContracting := [0]
  rhsNonContracting := [1]
  lhsBatch := []
  rhsBatch := []
  wf := dot_S1024x1024_S1024x128_S1024x128_1_0_0_1_n_n_wf

abbrev win0_0 : Pipeline.Window sig grid0 :=
  Pipeline.Window.ofSpec (Memref.whole main_arg0) S64x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S128x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S1x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S64x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v2) S1024x1024.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S1024x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v3) S1024x128.size cc1_transform_4 reads1_4 true true 1 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S1024x128 : Shape := ⟨2, ![1024, 128]⟩
abbrev S128x128 : Shape := ⟨2, ![128, 128]⟩
abbrev S128 : Shape := ⟨1, ![128]⟩
abbrev S128x1 : Shape := ⟨2, ![128, 1]⟩
abbrev S1 : Shape := ⟨1, ![1]⟩
abbrev S1024x1x128 : Shape := ⟨3, ![1024, 1, 128]⟩
abbrev S1x1024x128 : Shape := ⟨3, ![1, 1024, 128]⟩
abbrev S1024x1024x128 : Shape := ⟨3, ![1024, 1024, 128]⟩
abbrev S1x1x128 : Shape := ⟨3, ![1, 1, 128]⟩
abbrev S_ : Shape := ⟨0, ![]⟩
abbrev S1024x1024x1 : Shape := ⟨3, ![1024, 1024, 1]⟩
abbrev S1024x1024 : Shape := ⟨2, ![1024, 1024]⟩
abbrev S1024 : Shape := ⟨1, ![1024]⟩
abbrev S1024x1 : Shape := ⟨2, ![1024, 1]⟩
abbrev S1x1024 : Shape := ⟨2, ![1, 1024]⟩
abbrev S1x128 : Shape := ⟨2, ![1, 128]⟩

abbrev nBuf : Space → Nat
  | .hbm => 54
  | .vmem => 0
  | .smem => 0
  | _ => 0

abbrev bufTy : (tb : Table) → Fin (tcTables nBuf tb) → BufTy
  | .hbm, ⟨0, _⟩ => ⟨S1024x128, .f32⟩
  | .hbm, ⟨1, _⟩ => ⟨S128x128, .f32⟩
  | .hbm, ⟨2, _⟩ => ⟨S128, .f32⟩
  | .hbm, ⟨3, _⟩ => ⟨S128x1, .f32⟩
  | .hbm, ⟨4, _⟩ => ⟨S1, .f32⟩
  | .hbm, ⟨5, _⟩ => ⟨S128x128, .f32⟩
  | .hbm, ⟨6, _⟩ => ⟨S128, .f32⟩
  | .hbm, ⟨7, _⟩ => ⟨S1024x1x128, .f32⟩
  | .hbm, ⟨8, _⟩ => ⟨S1x1024x128, .f32⟩
  | .hbm, ⟨9, _⟩ => ⟨S1024x1024x128, .f32⟩
  | .hbm, ⟨10, _⟩ => ⟨S1024x1024x128, .f32⟩
  | .hbm, ⟨11, _⟩ => ⟨S1024x1024x128, .f32⟩
  | .hbm, ⟨12, _⟩ => ⟨S1024x1024x128, .f32⟩
  | .hbm, ⟨13, _⟩ => ⟨S1024x1024x128, .f32⟩
  | .hbm, ⟨14, _⟩ => ⟨S1x1x128, .f32⟩
  | .hbm, ⟨15, _⟩ => ⟨S1024x1024x128, .f32⟩
  | .hbm, ⟨16, _⟩ => ⟨S1024x1024x128, .f32⟩
  | .hbm, ⟨17, _⟩ => ⟨S_, .f32⟩
  | .hbm, ⟨18, _⟩ => ⟨S1024x1024x128, .f32⟩
  | .hbm, ⟨19, _⟩ => ⟨S1024x1024x128, .f32⟩
  | .hbm, ⟨20, _⟩ => ⟨S1024x1024x1, .f32⟩
  | .hbm, ⟨21, _⟩ => ⟨S1024x1024, .f32⟩
  | .hbm, ⟨22, _⟩ => ⟨S_, .f32⟩
  | .hbm, ⟨23, _⟩ => ⟨S1024x1024, .f32⟩
  | .hbm, ⟨24, _⟩ => ⟨S1024x1024, .f32⟩
  | .hbm, ⟨25, _⟩ => ⟨S1024x1024, .f32⟩
  | .hbm, ⟨26, _⟩ => ⟨S1024x1024, .f32⟩
  | .hbm, ⟨27, _⟩ => ⟨S_, .f32⟩
  | .hbm, ⟨28, _⟩ => ⟨S1024x1024, .f32⟩
  | .hbm, ⟨29, _⟩ => ⟨S1024x1024, .f32⟩
  | .hbm, ⟨30, _⟩ => ⟨S_, .f32⟩
  | .hbm, ⟨31, _⟩ => ⟨S1024x1024, .f32⟩
  | .hbm, ⟨32, _⟩ => ⟨S1024x1024, .f32⟩
  | .hbm, ⟨33, _⟩ => ⟨S_, .f32⟩
  | .hbm, ⟨34, _⟩ => ⟨S1024, .f32⟩
  | .hbm, ⟨35, _⟩ => ⟨S1024, .f32⟩
  | .hbm, ⟨36, _⟩ => ⟨S1024x1, .f32⟩
  | .hbm, ⟨37, _⟩ => ⟨S1024x1024, .f32⟩
  | .hbm, ⟨38, _⟩ => ⟨S1024x1024, .f32⟩
  | .hbm, ⟨39, _⟩ => ⟨S1x1024, .f32⟩
  | .hbm, ⟨40, _⟩ => ⟨S1024x1024, .f32⟩
  | .hbm, ⟨41, _⟩ => ⟨S1024x1024, .f32⟩
  | .hbm, ⟨42, _⟩ => ⟨S1024x128, .f32⟩
  | .hbm, ⟨43, _⟩ => ⟨S1024x128, .f32⟩
  | .hbm, ⟨44, _⟩ => ⟨S1x128, .f32⟩
  | .hbm, ⟨45, _⟩ => ⟨S1024x128, .f32⟩
  | .hbm, ⟨46, _⟩ => ⟨S1024x128, .f32⟩
  | .hbm, ⟨47, _⟩ => ⟨S_, .f32⟩
  | .hbm, ⟨48, _⟩ => ⟨S1024x128, .f32⟩
  | .hbm, ⟨49, _⟩ => ⟨S1024x128, .i1⟩
  | .hbm, ⟨50, _⟩ => ⟨S_, .f32⟩
  | .hbm, ⟨51, _⟩ => ⟨S1024x128, .f32⟩
  | .hbm, ⟨52, _⟩ => ⟨S1024x128, .f32⟩
  | .hbm, ⟨53, _⟩ => ⟨S1024x128, .f32⟩
  | _, _ => ⟨S1024x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_call0_cst : Ref sig .tc := ⟨.hbm, 17, rfl⟩
abbrev main_call0_v0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst : Ref sig .tc := ⟨.hbm, 27, rfl⟩
abbrev main_v18 : Ref sig .tc := ⟨.hbm, 28, rfl⟩
abbrev main_v19 : Ref sig .tc := ⟨.hbm, 29, rfl⟩
abbrev main_cst_0 : Ref sig .tc := ⟨.hbm, 30, rfl⟩
abbrev main_v20 : Ref sig .tc := ⟨.hbm, 31, rfl⟩
abbrev main_v21 : Ref sig .tc := ⟨.hbm, 32, rfl⟩
abbrev main_cst_1 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_2 : Ref sig .tc := ⟨.hbm, 47, rfl⟩
abbrev main_v35 : Ref sig .tc := ⟨.hbm, 48, rfl⟩
abbrev main_v36 : Ref sig .tc := ⟨.hbm, 49, rfl⟩
abbrev main_cst_3 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩

abbrev nD : Nat := 1
abbrev τ : Topo := Topo.v7x

variable {F : FTy → Type} [FloatOps F]

class Facts₀ : Prop where
  bcast_S1024x128_S1024x1x128_0_2 : S1024x128.BroadcastsInDim S1024x1x128 (![0, 2] : Fin 2 → Fin S1024x1x128.rank)
  bcast_S1024x128_S1x1024x128_1_2 : S1024x128.BroadcastsInDim S1x1024x128 (![1, 2] : Fin 2 → Fin S1x1024x128.rank)
  bcast_S1024x1x128_S1024x1024x128_0_1_2 : S1024x1x128.BroadcastsInDim S1024x1024x128 (![0, 1, 2] : Fin 3 → Fin S1024x1024x128.rank)
  bcast_S1x1024x128_S1024x1024x128_0_1_2 : S1x1024x128.BroadcastsInDim S1024x1024x128 (![0, 1, 2] : Fin 3 → Fin S1024x1024x128.rank)
  bcast_S128_S1x1x128_2 : S128.BroadcastsInDim S1x1x128 (![2] : Fin 1 → Fin S1x1x128.rank)
  bcast_S1x1x128_S1024x1024x128_0_1_2 : S1x1x128.BroadcastsInDim S1024x1024x128 (![0, 1, 2] : Fin 3 → Fin S1024x1024x128.rank)
  bcast_S_S1024x1024x128 : S_.BroadcastsInDim S1024x1024x128 (![] : Fin 0 → Fin S1024x1024x128.rank)
  shapeCasts_S1024x1024x1_S1024x1024 : S1024x1024x1.ShapeCasts S1024x1024
  shapeCasts_S1_S_ : S1.ShapeCasts S_
  bcast_S_S1024x1024 : S_.BroadcastsInDim S1024x1024 (![] : Fin 0 → Fin S1024x1024.rank)
  reducesTo_S1024x1024_S1024_d1 : S1024x1024.ReducesTo [1] S1024
  h_S_ : 0 < S_.numel
  bcast_S1024_S1024x1_0 : S1024.BroadcastsInDim S1024x1 (![0] : Fin 1 → Fin S1024x1.rank)
  bcast_S1024x1_S1024x1024_0_1 : S1024x1.BroadcastsInDim S1024x1024 (![0, 1] : Fin 2 → Fin S1024x1024.rank)
  bcast_S1024_S1x1024_1 : S1024.BroadcastsInDim S1x1024 (![1] : Fin 1 → Fin S1x1024.rank)
  bcast_S1x1024_S1024x1024_0_1 : S1x1024.BroadcastsInDim S1024x1024 (![0, 1] : Fin 2 → Fin S1024x1024.rank)
  bcast_S128_S1x128_1 : S128.BroadcastsInDim S1x128 (![1] : Fin 1 → Fin S1x128.rank)
  bcast_S1x128_S1024x128_0_1 : S1x128.BroadcastsInDim S1024x128 (![0, 1] : Fin 2 → Fin S1024x128.rank)
  bcast_S_S1024x128 : S_.BroadcastsInDim S1024x128 (![] : Fin 0 → Fin S1024x128.rank)
  dot_S1024x1024x128_S128x128_S1024x1024x128_2_0_01_1_n_n_wf : DotDims.WF S1024x1024x128 S128x128 S1024x1024x128 [2] [0] [0, 1] [1] [] []
  dot_S1024x1024x128_S128x1_S1024x1024x1_2_0_01_1_n_n_wf : DotDims.WF S1024x1024x128 S128x1 S1024x1024x1 [2] [0] [0, 1] [1] [] []
  dot_S1024x128_S128x128_S1024x128_1_0_0_1_n_n_wf : DotDims.WF S1024x128 S128x128 S1024x128 [1] [0] [0] [1] [] []
  dot_S1024x1024_S1024x128_S1024x128_1_0_0_1_n_n_wf : DotDims.WF S1024x1024 S1024x128 S1024x128 [1] [0] [0] [1] [] []

variable [Facts₀]

def dot_S1024x1024x128_S128x128_S1024x1024x128_2_0_01_1_n_n : DotDims S1024x1024x128 S128x128 S1024x1024x128 where
  lhsContracting := [2]
  rhsContracting := [0]
  lhsNonContracting := [0, 1]
  rhsNonContracting := [1]
  lhsBatch := []
  rhsBatch := []
  wf := dot_S1024x1024x128_S128x128_S1024x1024x128_2_0_01_1_n_n_wf
def dot_S1024x1024x128_S128x1_S1024x1024x1_2_0_01_1_n_n : DotDims S1024x1024x128 S128x1 S1024x1024x1 where
  lhsContracting := [2]
  rhsContracting := [0]
  lhsNonContracting := [0, 1]
  rhsNonContracting := [1]
  lhsBatch := []
  rhsBatch := []
  wf := dot_S1024x1024x128_S128x1_S1024x1024x1_2_0_01_1_n_n_wf
def dot_S1024x128_S128x128_S1024x128_1_0_0_1_n_n : DotDims S1024x128 S128x128 S1024x128 where
  lhsContracting := [1]
  rhsContracting := [0]
  lhsNonContracting := [0]
  rhsNonContracting := [1]
  lhsBatch := []
  rhsBatch := []
  wf := dot_S1024x128_S128x128_S1024x128_1_0_0_1_n_n_wf
def dot_S1024x1024_S1024x128_S1024x128_1_0_0_1_n_n : DotDims S1024x1024 S1024x128 S1024x128 where
  lhsContracting := [1]
  rhsContracting := [0]
  lhsNonContracting := [0]
  rhsNonContracting := [1]
  lhsBatch := []
  rhsBatch := []
  wf := dot_S1024x1024_S1024x128_S1024x128_1_0_0_1_n_n_wf

class Facts : Prop extends Facts₀ where

variable [Facts]
-- ==== Proof.KBody0.lean ====
import proofs.«145925_j77386720739714_1_alg».proof.Proof.Gen.Kernel.Launch
import proofs.«145925_j77386720739714_1_alg».proof.Proof.Gen.Kernel.Skeleton
import proofs.«145925_j77386720739714_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The edge-weight kernel at one grid point -/

abbrev rXi : Rect S64x128 := Rect.unit (s := S64x128) ![0, 0] S64x128.size inb_S64x128_S64x128_0_0
abbrev rSq : Rect S128x128 := Rect.unit (s := S128x128) ![0, 0] S128x128.size inb_S128x128_S128x128_0_0
abbrev rVec : Rect S128 := Rect.unit (s := S128) ![0] S128.size inb_S128_S128_0
abbrev rOne : Rect S1x1 := Rect.unit (s := S1x1) ![0, 0] S1x1.size inb_S1x1_S1x1_0_0

/-- What the body leaves in the output block: its one store, the whole block, of the payload of the six loaded blocks. -/
def out0_6 (x0 : Vec F S64x128 .f32) (x1 : Vec F S128x128 .f32) (x2 : Vec F S128x128 .f32) (x3 x4 : Vec F S128 .f32) (x5 : Vec F S1x1 .f32) : Vec F S64x128 .f32 :=
  View.canon [⟨rXi, k0_pay1 (View.ld x0 rXi) (View.ld x1 rSq) (View.ld x2 rSq) (View.ld x3 rVec) (View.ld x4 rVec) (View.ld x5 rOne)⟩]

theorem cover0_6 (p0 : Vec F S64x128 .f32) (y : S64x128.Idx) :
    ∃ pc ∈ ([⟨rXi, p0⟩] : List (View.Piece (Elt F) S64x128 .f32)), y ∈ pc.1.set :=
  View.cover_of_tiled [⟨rXi, p0⟩] S64x128.size (by rfl) y

set_option maxHeartbeats 1000000 in
/-- The body on whole staging memrefs: the six inputs at read contents, the output at anything; it leaves the inputs as
    they were and the output at `out0_6` of them. -/
theorem sound_kernel0 (c : Dev nD) (E : Set ℕ) (i : grid0.Coords)
    (arg2 : Memref sig .tc .vmem S64x128 .f32) (harg2 : arg2.IsWhole) (arg3 : Memref sig .tc .vmem S128x128 .f32) (harg3 : arg3.IsWhole)
    (arg4 : Memref sig .tc .vmem S128x128 .f32) (harg4 : arg4.IsWhole) (arg5 : Memref sig .tc .vmem S128 .f32) (harg5 : arg5.IsWhole)
    (arg6 : Memref sig .tc .vmem S128 .f32) (harg6 : arg6.IsWhole) (arg7 : Memref sig .tc .vmem S1x1 .f32) (harg7 : arg7.IsWhole)
    (arg8 : Memref sig .tc .vmem S64x128 .f32) (harg8 : arg8.IsWhole)
    (x0 : Vec F S64x128 .f32) (x1 : Vec F S128x128 .f32) (x2 : Vec F S128x128 .f32) (x3 x4 : Vec F S128 .f32) (x5 : Vec F S1x1 .f32)
    (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ (∃ d, owns (c : Thread nD τ) arg8 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare x5
            ∗ owns (c : Thread nD τ) arg8 fullShare (out0_6 x0 x1 x2 x3 x4 x5)) -∗ K ⟨⟩))
      ⊢ wp frame (wpE (defs₀ (F := F)) Variants.none c none) E (cc0__adj_kernel i arg2 harg2 arg3 harg3 arg4 harg4 arg5 harg5 arg6 harg6 arg7 harg7 arg8 harg8) K := by
  simp only [cc0__adj_kernel_eq_skeleton]; unfold cc0__adj_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover0_6 _)

end Cert.Kernel.Hand

end
-- ==== Proof.KDat0.lean ====
import proofs.«145925_j77386720739714_1_alg».proof.Proof.Gen.Kernel.Launch
import proofs.«145925_j77386720739714_1_alg».proof.Proof.Gen.Kernel.Skeleton
import proofs.«145925_j77386720739714_1_alg».proof.Proof.Gen.Kernel.Points
import proofs.«145925_j77386720739714_1_alg».proof.Proof.KBody0
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The edge-weight region: its proof data and its body obligation, at the contents `V` the region is entered with -/

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- The two windows on the feature array hold one half of it each; every other array is held whole. -/
def q0 : Fin cfg0.W → PosShare TreeShare
  | ⟨0, _⟩ => fullShare.left
  | ⟨1, _⟩ => fullShare.right
  | _ => fullShare

/-- The proof data: the arrays as the region finds them; after the body each input's buffer at its block and the
    output's at `out0_6` of the input blocks; the scoped rest and the generator register untouched; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => out0_6 (iblk0 V c 0 t) (iblk0 V c 1 t) (iblk0 V c 2 t) (iblk0 V c 3 t) (iblk0 V c 4 t) (iblk0 V c 5 t)
  Φ _ := Pipeline.ΦA spec0 c
  q := q0
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t
    = out0_6 (iblk0 V c 0 t) (iblk0 V c 1 t) (iblk0 V c 2 t) (iblk0 V c 3 t) (iblk0 V c 4 t) (iblk0 V c 5 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _ (iblk0 V c 0 t) (iblk0 V c 1 t) (iblk0 V c 2 t) (iblk0 V c 3 t) (iblk0 V c 4 t) (iblk0 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KBody1.lean ====
import proofs.«145925_j77386720739714_1_alg».proof.Proof.Gen.Kernel.Launch
import proofs.«145925_j77386720739714_1_alg».proof.Proof.Gen.Kernel.Skeleton
import proofs.«145925_j77386720739714_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The graph-convolution kernel at its one grid point -/

abbrev rAdj : Rect S1024x1024 := Rect.unit (s := S1024x1024) ![0, 0] S1024x1024.size inb_S1024x1024_S1024x1024_0_0
abbrev rX : Rect S1024x128 := Rect.unit (s := S1024x128) ![0, 0] S1024x128.size inb_S1024x128_S1024x128_0_0
abbrev rWg : Rect S128x128 := Rect.unit (s := S128x128) ![0, 0] S128x128.size inb_S128x128_S128x128_0_0
abbrev rBg : Rect S128 := Rect.unit (s := S128) ![0] S128.size inb_S128_S128_0

/-- What the body leaves in the output block: its one store, the whole block, of the payload of the four loaded blocks. -/
def out1_4 (x0 : Vec F S1024x1024 .f32) (x1 : Vec F S1024x128 .f32) (x2 : Vec F S128x128 .f32) (x3 : Vec F S128 .f32) : Vec F S1024x128 .f32 :=
  View.canon [⟨rX, k1_pay1 (View.ld x0 rAdj) (View.ld x1 rX) (View.ld x2 rWg) (View.ld x3 rBg)⟩]

theorem cover1_4 (p0 : Vec F S1024x128 .f32) (y : S1024x128.Idx) :
    ∃ pc ∈ ([⟨rX, p0⟩] : List (View.Piece (Elt F) S1024x128 .f32)), y ∈ pc.1.set :=
  View.cover_of_tiled [⟨rX, p0⟩] S1024x128.size (by rfl) y

set_option maxHeartbeats 1000000 in
/-- The body on whole staging memrefs: the four inputs at read contents, the output at anything; it leaves the inputs as
    they were and the output at `out1_4` of them. -/
theorem sound_kernel1 (c : Dev nD) (E : Set ℕ) (i : grid1.Coords)
    (arg1 : Memref sig .tc .vmem S1024x1024 .f32) (harg1 : arg1.IsWhole) (arg2 : Memref sig .tc .vmem S1024x128 .f32) (harg2 : arg2.IsWhole)
    (arg3 : Memref sig .tc .vmem S128x128 .f32) (harg3 : arg3.IsWhole) (arg4 : Memref sig .tc .vmem S128 .f32) (harg4 : arg4.IsWhole)
    (arg5 : Memref sig .tc .vmem S1024x128 .f32) (harg5 : arg5.IsWhole)
    (x0 : Vec F S1024x1024 .f32) (x1 : Vec F S1024x128 .f32) (x2 : Vec F S128x128 .f32) (x3 : Vec F S128 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3
        ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3
            ∗ owns (c : Thread nD τ) arg5 fullShare (out1_4 x0 x1 x2 x3)) -∗ K ⟨⟩))
      ⊢ wp frame (wpE (defs₀ (F := F)) Variants.none c none) E (cc1__gcn_kernel i arg1 harg1 arg2 harg2 arg3 harg3 arg4 harg4 arg5 harg5) K := by
  simp only [cc1__gcn_kernel_eq_skeleton]; unfold cc1__gcn_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_4 _)

end Cert.Kernel.Hand

end
-- ==== Proof.KDat1.lean ====
import proofs.«145925_j77386720739714_1_alg».proof.Proof.Gen.Kernel.Launch
import proofs.«145925_j77386720739714_1_alg».proof.Proof.Gen.Kernel.Skeleton
import proofs.«145925_j77386720739714_1_alg».proof.Proof.Gen.Kernel.Points
import proofs.«145925_j77386720739714_1_alg».proof.Proof.KBody1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The graph-convolution region: its proof data and its body obligation, at the contents `V` the region is entered with -/

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! An input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- The proof data: the arrays as the region finds them; after the body each input's buffer at its block and the
    output's at `out1_4` of the input blocks; the scoped rest and the generator register untouched; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t
    = out1_4 (iblk1 V c 0 t) (iblk1 V c 1 t) (iblk1 V c 2 t) (iblk1 V c 3 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.KVals.lean ====
import proofs.«145925_j77386720739714_1_alg».proof.Proof.Gen.Kernel.Launch
import proofs.«145925_j77386720739714_1_alg».proof.Proof.Gen.Kernel.Skeleton
import proofs.«145925_j77386720739714_1_alg».proof.Proof.Gen.Kernel.Points
import proofs.«145925_j77386720739714_1_alg».proof.Proof.KDat0
import proofs.«145925_j77386720739714_1_alg».proof.Proof.KDat1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The buffers' contents at each boundary between @main's items -/

variable (m : (ℓ : Loc nD τ sig) → Buf (Elt F) ℓ)

/-- Core `c`'s buffers at launch. -/
abbrev W0 : Dev nD → Valuation τ sig (Elt F) := fun c b => m (c, b)
/-- After the two reshapes of the second layer's weights and bias (the edge-weight region's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b

/-- What the edge-weight region leaves in the weight matrix's buffer. -/
def adjOut (c : Dev nD) : Buf (Elt F) ((c : Thread nD τ).loc main_v2) := (dat0 (V1 m) c).arrAt 6 cfg0.N

/-- At the edge-weight region's exit: the weight matrix at what the write-backs leave, every other buffer as entered. -/
def W2 (c : Dev nD) : Valuation τ sig (Elt F) := Function.update (W1 m c) (Proc.devRef .tc main_v2) (adjOut m c)
abbrev V2 : (c : Dev nD) → (b : Ref sig .tc) → Buf (Elt F) ((c : Thread nD τ).loc b) := fun c b => W2 m c b

theorem V2_main_v2 (c : Dev nD) : V2 m c main_v2 = adjOut m c := by
  show Function.update (W1 m c) (Proc.devRef .tc main_v2) (adjOut m c) (Proc.devRef .tc main_v2) = _
  exact Function.update_self ..
theorem V2_of_ne (c : Dev nD) (b : Ref sig .tc) (hb : b ≠ main_v2) : V2 m c b = V1 m c b := by
  show Function.update (W1 m c) (Proc.devRef .tc main_v2) (adjOut m c) (Proc.devRef .tc b) = _
  exact Function.update_of_ne (StableHlo.devRef_ne_of_ne hb) ..

/-- What the graph-convolution region leaves in the output's buffer. -/
def gcnOut (c : Dev nD) : Buf (Elt F) ((c : Thread nD τ).loc main_v3) := (dat1 (V2 m) c).arrAt 4 cfg1.N

/-- At the graph-convolution region's exit: the output at what the write-back leaves, every other buffer as entered. -/
def W3 (c : Dev nD) : Valuation τ sig (Elt F) := Function.update (W2 m c) (Proc.devRef .tc main_v3) (gcnOut m c)
abbrev V3 : (c : Dev nD) → (b : Ref sig .tc) → Buf (Elt F) ((c : Thread nD τ).loc b) := fun c b => W3 m c b

theorem V3_main_v3 (c : Dev nD) : V3 m c main_v3 = gcnOut m c := by
  show Function.update (W2 m c) (Proc.devRef .tc main_v3) (gcnOut m c) (Proc.devRef .tc main_v3) = _
  exact Function.update_self ..
theorem V3_of_ne (c : Dev nD) (b : Ref sig .tc) (hb : b ≠ main_v3) : V3 m c b = V2 m c b := by
  show Function.update (W2 m c) (Proc.devRef .tc main_v3) (gcnOut m c) (Proc.devRef .tc b) = _
  exact Function.update_of_ne (StableHlo.devRef_ne_of_ne hb) ..

/-- The references the two reshapes write. -/
theorem hostOps0_writes : (hostOps0 : List (HloOp τ sig (Elt F))).Forall fun op => op.writes ⊆ (([main_v0, main_v1] : List (Ref sig .tc)).map (Proc.devRef (τ := τ) .tc)).toFinset := by
  simp only [List.Forall]
  exact ⟨by simp only [StableHlo.reshape_writes, Finset.singleton_subset_iff, List.mem_toFinset]; exact List.mem_map_of_mem (by decide),
    by simp only [StableHlo.reshape_writes, Finset.singleton_subset_iff, List.mem_toFinset]; exact List.mem_map_of_mem (by decide)⟩

/-- A buffer the reshapes do not write holds its launch contents at the first region's entry. -/
theorem V1_of (c : Dev nD) (r : Ref sig .tc) (h : r ∉ ([main_v0, main_v1] : List (Ref sig .tc))) : V1 m c r = m ((c : Thread nD τ).loc r) :=
  StableHlo.after_of_writes_sub hostOps0 _ (hostOps0_writes (F := F)) h

/-- An argument array is written by no reshape and no region: at the end it holds its launch contents. -/
theorem V3_arg (c : Dev nD) (r : Ref sig .tc) (h3 : r ≠ main_v3) (h2 : r ≠ main_v2) (h1 : r ∉ ([main_v0, main_v1] : List (Ref sig .tc))) :
    V3 m c r = m ((c : Thread nD τ).loc r) :=
  (V3_of_ne m c r h3).trans ((V2_of_ne m c r h2).trans (V1_of m c r h1))

end Cert.Kernel.Hand

end
-- ==== Proof.KRun.lean ====
import proofs.«145925_j77386720739714_1_alg».proof.Proof.Gen.Kernel.Launch
import proofs.«145925_j77386720739714_1_alg».proof.Proof.Gen.Kernel.Skeleton
import proofs.«145925_j77386720739714_1_alg».proof.Proof.Gen.Kernel.Points
import proofs.«145925_j77386720739714_1_alg».proof.Proof.KVals
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The launch: @main's segments from the launch contents to the return -/

variable (m : (ℓ : Loc nD τ sig) → Buf (Elt F) ℓ) (ρ : Dev nD → PrngReg)

/-! ## The edge-weight region's arrays out of the unscoped buffers and back

  Two of its windows are on the feature array: each holds one half of that buffer's points-to. -/

/-- The listed arrays of the edge-weight region, one buffer each. -/
theorem arrBufs0_eq (c : Dev nD) (V : (b : Ref sig .tc) → Buf (Elt F) ((c : Thread nD τ).loc b)) :
    (Pipeline.arrBufs (Ix := Unit) (Name := ℕ) (U := UR sig nD τ) (Lvl := ℕ) spec0 c V : sProp 𝕄)
      = iprop((((c : Thread nD τ).loc main_arg0) ↦{fullShare} V main_arg0) ∗ (((c : Thread nD τ).loc main_arg1) ↦{fullShare} V main_arg1)
        ∗ (((c : Thread nD τ).loc main_arg2) ↦{fullShare} V main_arg2) ∗ (((c : Thread nD τ).loc main_v0) ↦{fullShare} V main_v0)
        ∗ (((c : Thread nD τ).loc main_v1) ↦{fullShare} V main_v1) ∗ (((c : Thread nD τ).loc main_v2) ↦{fullShare} V main_v2)) := by
  unfold Pipeline.arrBufs
  exact bigSep_eq_bigSepL_of_eq [main_arg0, main_arg1, main_arg2, main_v0, main_v1, main_v2] (by decide) (by decide) _

theorem share0_0 (c : Dev nD) (V) : (dat0 (F := F) V c).share 0 = fullShare.left := rfl
theorem share0_1 (c : Dev nD) (V) : (dat0 (F := F) V c).share 1 = fullShare.right := rfl
theorem share0_2 (c : Dev nD) (V) : (dat0 (F := F) V c).share 2 = fullShare := rfl
theorem share0_3 (c : Dev nD) (V) : (dat0 (F := F) V c).share 3 = fullShare := rfl
theorem share0_4 (c : Dev nD) (V) : (dat0 (F := F) V c).share 4 = fullShare := rfl
theorem share0_5 (c : Dev nD) (V) : (dat0 (F := F) V c).share 5 = fullShare := rfl
theorem share0_6 (c : Dev nD) (V) : (dat0 (F := F) V c).share 6 = fullShare := rfl

/-- The edge-weight region's arrays at contents `G`, listed: the feature array's two halves, the five others whole. -/
theorem arrays0_eq (c : Dev nD) (V) (G : (w : Fin cfg0.W) → Buf (Elt F) ((cfg0.win w).arr.view.loc (c : Thread nD τ))) :
    ((dat0 (F := F) V c).arrays G : sProp 𝕄)
      = iprop((((c : Thread nD τ).loc main_arg0) ↦{fullShare.left} G 0) ∗ (((c : Thread nD τ).loc main_arg0) ↦{fullShare.right} G 1)
        ∗ (((c : Thread nD τ).loc main_arg1) ↦{fullShare} G 2) ∗ (((c : Thread nD τ).loc main_arg2) ↦{fullShare} G 3)
        ∗ (((c : Thread nD τ).loc main_v0) ↦{fullShare} G 4) ∗ (((c : Thread nD τ).loc main_v1) ↦{fullShare} G 5)
        ∗ (((c : Thread nD τ).loc main_v2) ↦{fullShare} G 6)) := by
  unfold Dat.arrays
  rw [bigSep_W0, (arr_whole0 0).set_eq_univ, (arr_whole0 2).set_eq_univ, (arr_whole0 3).set_eq_univ,
    (arr_whole0 4).set_eq_univ, (arr_whole0 5).set_eq_univ, (arr_whole0 6).set_eq_univ,
    share0_0, share0_1, share0_2, share0_3, share0_4, share0_5, share0_6]

/-- A whole buffer's points-to is its two halves. -/
theorem halve (c : Dev nD) (f : Buf (Elt F) ((c : Thread nD τ).loc main_arg0)) :
    ((((c : Thread nD τ).loc main_arg0) ↦{fullShare} f : sProp 𝕄))
      ⊣⊢ iprop((((c : Thread nD τ).loc main_arg0) ↦{fullShare.left} f) ∗ (((c : Thread nD τ).loc main_arg0) ↦{fullShare.right} f)) :=
  pointsTo_share (PosShare.mem_left_op_right fullShare)

/-- ENTRY: the unscoped buffers at the entry contents are the region's arrays at those contents — the feature array's
    points-to halved between the two windows on it — and the rest. -/
theorem split0 (c : Dev nD) :
    (unscopedBufs c (V1 m c) : sProp 𝕄)
      ⊢ iprop((dat0 (V1 m) c).arrays ((dat0 (V1 m) c).arrAt · 0) ∗ Pipeline.unscopedRest spec0 c (V1 m c)) := by
  rw [show (unscopedBufs c (V1 m c) : sProp 𝕄) = iprop(Pipeline.arrBufs spec0 c (V1 m c) ∗ Pipeline.unscopedRest spec0 c (V1 m c))
      from Pipeline.unscopedBufs_split₀ cfgs 0 winFacts₀0.arr_unscoped c (V1 m c), arrBufs0_eq, arrays0_eq]
  iintro ⟨⟨H0, H1, H2, H3, H4, H5⟩, Hrest⟩
  ihave H0' := (halve c (V1 m c main_arg0)).1 $$ H0
  icases H0' with ⟨H0l, H0r⟩
  isplitr [Hrest]
  · isplitl [H0l]; · iexact H0l
    isplitl [H0r]; · iexact H0r
    isplitl [H1]; · iexact H1
    isplitl [H2]; · iexact H2
    isplitl [H3]; · iexact H3
    isplitl [H4]; · iexact H4
    iexact H5
  · iexact Hrest

/-- An input window's array is never written: at the end it holds what it held at entry. -/
theorem arrAt0_in (c : Dev nD) (w : Fin cfg0.W) (hw : (cfg0.win w).isOut = false) :
    (dat0 (V1 m) c).arrAt w cfg0.N = V1 m c (Pipeline.arrRef spec0 w) :=
  ((dat0 (V1 m) c).arrAt_in w hw _).trans (A_eq0 (V1 m) c w)

/-- EXIT: the region's arrays at their final contents and the rest are the unscoped buffers at the exit contents —
    the two halves of the feature array, both still at its entry contents, joined. -/
theorem join0 (c : Dev nD) :
    iprop((dat0 (V1 m) c).arrays ((dat0 (V1 m) c).arrAt · cfg0.N) ∗ Pipeline.unscopedRest (Ix := Unit) (Name := ℕ) (U := UR sig nD τ) (Lvl := ℕ) spec0 c (V1 m c))
      ⊢ (unscopedBufs c (V2 m c) : sProp 𝕄) := by
  rw [show (unscopedBufs c (V2 m c) : sProp 𝕄) = iprop(Pipeline.arrBufs spec0 c (V2 m c) ∗ Pipeline.unscopedRest spec0 c (V2 m c))
      from Pipeline.unscopedBufs_split₀ cfgs 0 winFacts₀0.arr_unscoped c (V2 m c), arrBufs0_eq, arrays0_eq, unscopedRest0_eq, unscopedRest0_eq,
    arrAt0_in m c 0 rfl, arrAt0_in m c 1 rfl, arrAt0_in m c 2 rfl, arrAt0_in m c 3 rfl, arrAt0_in m c 4 rfl, arrAt0_in m c 5 rfl,
    V2_of_ne m c main_arg0 (by decide), V2_of_ne m c main_arg1 (by decide), V2_of_ne m c main_arg2 (by decide),
    V2_of_ne m c main_v0 (by decide), V2_of_ne m c main_v1 (by decide), V2_main_v2,
    V2_of_ne m c main_arg3 (by decide), V2_of_ne m c main_arg4 (by decide), V2_of_ne m c main_arg5 (by decide),
    V2_of_ne m c main_arg6 (by decide), V2_of_ne m c main_v3 (by decide)]
  iintro ⟨⟨H0l, H0r, H1, H2, H3, H4, H5⟩, Hrest⟩
  ihave H0 := (halve c (V1 m c main_arg0)).2 $$ [H0l H0r]
  · isplitl [H0l]; · iexact H0l
    iexact H0r
  isplitr [Hrest]
  · isplitl [H0]; · iexact H0
    isplitl [H1]; · iexact H1
    isplitl [H2]; · iexact H2
    isplitl [H3]; · iexact H3
    isplitl [H4]; · iexact H4
    iexact H5
  · iexact Hrest

/-! ## The graph-convolution region's exit contents -/

theorem arrAt1_in (c : Dev nD) (w : Fin cfg1.W) (hw : (cfg1.win w).isOut = false) :
    (dat1 (V2 m) c).arrAt w cfg1.N = V2 m c (Pipeline.arrRef spec1 w) :=
  ((dat1 (V2 m) c).arrAt_in w hw _).trans (A_eq1 (V2 m) c w)

/-- At the region's exit each of its arrays holds what the pipeline leaves, -/
theorem hF1 (c : Dev nD) : ∀ w : Fin cfg1.W, (dat1 (V2 m) c).arrAt w cfg1.N = V3 m c (Pipeline.arrRef spec1 w)
  | ⟨0, _⟩ => (arrAt1_in m c 0 rfl).trans (V3_of_ne m c main_v2 (by decide)).symm
  | ⟨1, _⟩ => (arrAt1_in m c 1 rfl).trans (V3_of_ne m c main_arg0 (by decide)).symm
  | ⟨2, _⟩ => (arrAt1_in m c 2 rfl).trans (V3_of_ne m c main_arg5 (by decide)).symm
  | ⟨3, _⟩ => (arrAt1_in m c 3 rfl).trans (V3_of_ne m c main_arg6 (by decide)).symm
  | ⟨4, _⟩ => (V3_main_v3 m c).symm
/-- and every other buffer what it held at entry. -/
theorem hrest1 (c : Dev nD) : ∀ b, b ∉ Finset.univ.image (Pipeline.arrRef spec1) → V3 m c b = V2 m c b :=
  fun b hb => V3_of_ne m c b fun e => hb (Finset.mem_image.mpr ⟨4, Finset.mem_univ _, e.symm⟩)

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V2 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and nothing owed. -/
abbrev R (c : Dev nD) : sProp 𝕄 := iprop((∃ r, prngReg c r) ∗ ∃ W, owes (c : Thread nD τ) (0 : CellTallies nD τ sig Unit) W)

theorem hostOps0_fresh : (hostOps0 : List (HloOp τ sig (Elt F))).Forall fun op => op.fresh = ∅ := by
  simp only [List.Forall]; repeat' constructor

/-- The reshapes as a segment over the unscoped references from the launch contents. -/
abbrev hseg0 : Pipeline.HostSeg (Name := ℕ) (U := UR sig nD τ) (pcfgs (F := F)) defs₀ 𝒱₀ L lv :=
  Pipeline.HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (W0 m) R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents, the generator
    register at some state. -/
abbrev Tₙ (c : Dev nD) : sProp 𝕄 := iprop(StableHlo.held (c : Thread nD τ) (Pipeline.ucRefs τ sig) (W3 m c) ∗ ∃ r, prngReg c r)

/-! ## The regions as segments -/

set_option backward.isDefEq.respectTransparency.types false in
/-- The edge-weight region: entered from every unscoped buffer at `W1`, left at `W2`. -/
def reg0 : Pipeline.RegionSeg (pcfgs (F := F)) adm (pdats m) () defs₀ 𝒱₀ L lv 0 where
  win := winFacts₀0
  block_pos := block_pos0
  stage_whole := stage_whole0
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := split0 m c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin : iprop((pdats m 0 c).arrays ((pdats m 0 c).arrAt · cfg0.N)
          ∗ Pipeline.unscopedRest (Ix := Unit) (Name := ℕ) (U := UR sig nD τ) (Lvl := ℕ) spec0 c (V1 m c))
        ⊢ (unscopedBufs c (V2 m c) : sProp 𝕄) := join0 m c
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The graph-convolution region: entered from every unscoped buffer at `W2`, left at `W3`. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's three segments in order: the reshapes, then the two regions. -/
abbrev segs : List (Pipeline.Seg (pcfgs (F := F)) adm (pdats m) () defs₀ 𝒱₀ L lv) :=
  [ .host (hseg0 m), .region (reg0 m), .region (reg1 m) ]

theorem main_run (c : Dev nD) : main (F := F) c = Pipeline.Seg.run (segs m) := (main_chain c).trans (by chain_rfl)

set_option backward.isDefEq.respectTransparency.types false in
/-- THE RUN: from any memory with zero counters every weakly fair execution of @main terminates, nothing faulting, and
    every final memory holds every unscoped buffer at the last boundary's contents `W3`: the arguments as launched,
    the weight matrix and the output at what the two regions' write-backs leave. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W3 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h c => h c)

end Cert.Kernel.Hand

end
-- ==== Proof.KFrames.lean ====
import proofs.«145925_j77386720739714_1_alg».proof.Proof.Gen.Kernel.Launch
import proofs.«145925_j77386720739714_1_alg».proof.Proof.Gen.Kernel.Skeleton
import proofs.«145925_j77386720739714_1_alg».proof.Proof.Gen.Kernel.Points
import proofs.«145925_j77386720739714_1_alg».proof.Proof.KRun
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # What the run says of the arguments and of the two results -/

variable (m : (ℓ : Loc nD τ sig) → Buf (Elt F) ℓ) (ρ : Dev nD → PrngReg)

/-- Every weakly fair execution terminates, nothing faulting, with the two results at what the regions leave and every
    argument array as launched. -/
theorem results : θ_run defs (onTc (τ := τ) (main (F := F))) ⟨m, fun _ => 0, ρ⟩ (fun r => ∀ c : Dev nD,
      r.2.mem ((c.tc : Thread nD τ).loc main_v3) = V3 m c main_v3
      ∧ r.2.mem ((c.tc : Thread nD τ).loc main_v2) = V3 m c main_v2
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨h c _ (mem_uc main_v3 (by decide)),
      h c _ (mem_uc main_v2 (by decide)),
      (h c _ (mem_uc main_arg0 (by decide))).trans (V3_arg m c main_arg0 (by decide) (by decide) (by decide)),
      (h c _ (mem_uc main_arg1 (by decide))).trans (V3_arg m c main_arg1 (by decide) (by decide) (by decide)),
      (h c _ (mem_uc main_arg2 (by decide))).trans (V3_arg m c main_arg2 (by decide) (by decide) (by decide)),
      (h c _ (mem_uc main_arg3 (by decide))).trans (V3_arg m c main_arg3 (by decide) (by decide) (by decide)),
      (h c _ (mem_uc main_arg4 (by decide))).trans (V3_arg m c main_arg4 (by decide) (by decide) (by decide)),
      (h c _ (mem_uc main_arg5 (by decide))).trans (V3_arg m c main_arg5 (by decide) (by decide) (by decide)),
      (h c _ (mem_uc main_arg6 (by decide))).trans (V3_arg m c main_arg6 (by decide) (by decide) (by decide))⟩)
    (run_main m ρ)

/-- The frame: the run ends and every argument array holds its launch contents. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => (h c).2.2) (results m ρ)

end Cert.Kernel.Hand

end
-- ==== Proof.Body0.lean ====
import proofs.«145925_j77386720739714_1_alg».proof.Proof.Gen.KernelIdeal.Launch
import proofs.«145925_j77386720739714_1_alg».proof.Proof.Gen.KernelIdeal.Skeleton
import proofs.«145925_j77386720739714_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The edge-weight kernel at one grid point -/

abbrev rXi : Rect S64x128 := Rect.unit (s := S64x128) ![0, 0] S64x128.size inb_S64x128_S64x128_0_0
abbrev rSq : Rect S128x128 := Rect.unit (s := S128x128) ![0, 0] S128x128.size inb_S128x128_S128x128_0_0
abbrev rVec : Rect S128 := Rect.unit (s := S128) ![0] S128.size inb_S128_S128_0
abbrev rOne : Rect S1x1 := Rect.unit (s := S1x1) ![0, 0] S1x1.size inb_S1x1_S1x1_0_0

/-- What the body leaves in the output block: its one store, the whole block, of the payload of the six loaded blocks. -/
def out0_6 (x0 : Vec F S64x128 .f32) (x1 : Vec F S128x128 .f32) (x2 : Vec F S128x128 .f32) (x3 x4 : Vec F S128 .f32) (x5 : Vec F S1x1 .f32) : Vec F S64x128 .f32 :=
  View.canon [⟨rXi, k0_pay1 (View.ld x0 rXi) (View.ld x1 rSq) (View.ld x2 rSq) (View.ld x3 rVec) (View.ld x4 rVec) (View.ld x5 rOne)⟩]

theorem cover0_6 (p0 : Vec F S64x128 .f32) (y : S64x128.Idx) :
    ∃ pc ∈ ([⟨rXi, p0⟩] : List (View.Piece (Elt F) S64x128 .f32)), y ∈ pc.1.set :=
  View.cover_of_tiled [⟨rXi, p0⟩] S64x128.size (by rfl) y

set_option maxHeartbeats 1000000 in
/-- The body on whole staging memrefs: the six inputs at read contents, the output at anything; it leaves the inputs as
    they were and the output at `out0_6` of them. -/
theorem sound_kernel0 (c : Dev nD) (E : Set ℕ) (i : grid0.Coords)
    (arg2 : Memref sig .tc .vmem S64x128 .f32) (harg2 : arg2.IsWhole) (arg3 : Memref sig .tc .vmem S128x128 .f32) (harg3 : arg3.IsWhole)
    (arg4 : Memref sig .tc .vmem S128x128 .f32) (harg4 : arg4.IsWhole) (arg5 : Memref sig .tc .vmem S128 .f32) (harg5 : arg5.IsWhole)
    (arg6 : Memref sig .tc .vmem S128 .f32) (harg6 : arg6.IsWhole) (arg7 : Memref sig .tc .vmem S1x1 .f32) (harg7 : arg7.IsWhole)
    (arg8 : Memref sig .tc .vmem S64x128 .f32) (harg8 : arg8.IsWhole)
    (x0 : Vec F S64x128 .f32) (x1 : Vec F S128x128 .f32) (x2 : Vec F S128x128 .f32) (x3 x4 : Vec F S128 .f32) (x5 : Vec F S1x1 .f32)
    (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ (∃ d, owns (c : Thread nD τ) arg8 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare x5
            ∗ owns (c : Thread nD τ) arg8 fullShare (out0_6 x0 x1 x2 x3 x4 x5)) -∗ K ⟨⟩))
      ⊢ wp frame (wpE (defs₀ (F := F)) Variants.none c none) E (cc0__adj_kernel i arg2 harg2 arg3 harg3 arg4 harg4 arg5 harg5 arg6 harg6 arg7 harg7 arg8 harg8) K := by
  simp only [cc0__adj_kernel_eq_skeleton]; unfold cc0__adj_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover0_6 _)

end Cert.KernelIdeal.Hand

end
-- ==== Proof.Dat0.lean ====
import proofs.«145925_j77386720739714_1_alg».proof.Proof.Gen.KernelIdeal.Launch
import proofs.«145925_j77386720739714_1_alg».proof.Proof.Gen.KernelIdeal.Skeleton
import proofs.«145925_j77386720739714_1_alg».proof.Proof.Gen.KernelIdeal.Points
import proofs.«145925_j77386720739714_1_alg».proof.Proof.Body0
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The edge-weight region: its proof data and its body obligation, at the contents `V` the region is entered with -/

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- The two windows on the feature array hold one half of it each; every other array is held whole. -/
def q0 : Fin cfg0.W → PosShare TreeShare
  | ⟨0, _⟩ => fullShare.left
  | ⟨1, _⟩ => fullShare.right
  | _ => fullShare

/-- The proof data: the arrays as the region finds them; after the body each input's buffer at its block and the
    output's at `out0_6` of the input blocks; the scoped rest and the generator register untouched; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => out0_6 (iblk0 V c 0 t) (iblk0 V c 1 t) (iblk0 V c 2 t) (iblk0 V c 3 t) (iblk0 V c 4 t) (iblk0 V c 5 t)
  Φ _ := Pipeline.ΦA spec0 c
  q := q0
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t
    = out0_6 (iblk0 V c 0 t) (iblk0 V c 1 t) (iblk0 V c 2 t) (iblk0 V c 3 t) (iblk0 V c 4 t) (iblk0 V c 5 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _ (iblk0 V c 0 t) (iblk0 V c 1 t) (iblk0 V c 2 t) (iblk0 V c 3 t) (iblk0 V c 4 t) (iblk0 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.Body1.lean ====
import proofs.«145925_j77386720739714_1_alg».proof.Proof.Gen.KernelIdeal.Launch
import proofs.«145925_j77386720739714_1_alg».proof.Proof.Gen.KernelIdeal.Skeleton
import proofs.«145925_j77386720739714_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The graph-convolution kernel at its one grid point -/

abbrev rAdj : Rect S1024x1024 := Rect.unit (s := S1024x1024) ![0, 0] S1024x1024.size inb_S1024x1024_S1024x1024_0_0
abbrev rX : Rect S1024x128 := Rect.unit (s := S1024x128) ![0, 0] S1024x128.size inb_S1024x128_S1024x128_0_0
abbrev rWg : Rect S128x128 := Rect.unit (s := S128x128) ![0, 0] S128x128.size inb_S128x128_S128x128_0_0
abbrev rBg : Rect S128 := Rect.unit (s := S128) ![0] S128.size inb_S128_S128_0

/-- What the body leaves in the output block: its one store, the whole block, of the payload of the four loaded blocks. -/
def out1_4 (x0 : Vec F S1024x1024 .f32) (x1 : Vec F S1024x128 .f32) (x2 : Vec F S128x128 .f32) (x3 : Vec F S128 .f32) : Vec F S1024x128 .f32 :=
  View.canon [⟨rX, k1_pay1 (View.ld x0 rAdj) (View.ld x1 rX) (View.ld x2 rWg) (View.ld x3 rBg)⟩]

theorem cover1_4 (p0 : Vec F S1024x128 .f32) (y : S1024x128.Idx) :
    ∃ pc ∈ ([⟨rX, p0⟩] : List (View.Piece (Elt F) S1024x128 .f32)), y ∈ pc.1.set :=
  View.cover_of_tiled [⟨rX, p0⟩] S1024x128.size (by rfl) y

set_option maxHeartbeats 1000000 in
/-- The body on whole staging memrefs: the four inputs at read contents, the output at anything; it leaves the inputs as
    they were and the output at `out1_4` of them. -/
theorem sound_kernel1 (c : Dev nD) (E : Set ℕ) (i : grid1.Coords)
    (arg1 : Memref sig .tc .vmem S1024x1024 .f32) (harg1 : arg1.IsWhole) (arg2 : Memref sig .tc .vmem S1024x128 .f32) (harg2 : arg2.IsWhole)
    (arg3 : Memref sig .tc .vmem S128x128 .f32) (harg3 : arg3.IsWhole) (arg4 : Memref sig .tc .vmem S128 .f32) (harg4 : arg4.IsWhole)
    (arg5 : Memref sig .tc .vmem S1024x128 .f32) (harg5 : arg5.IsWhole)
    (x0 : Vec F S1024x1024 .f32) (x1 : Vec F S1024x128 .f32) (x2 : Vec F S128x128 .f32) (x3 : Vec F S128 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3
        ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3
            ∗ owns (c : Thread nD τ) arg5 fullShare (out1_4 x0 x1 x2 x3)) -∗ K ⟨⟩))
      ⊢ wp frame (wpE (defs₀ (F := F)) Variants.none c none) E (cc1__gcn_kernel i arg1 harg1 arg2 harg2 arg3 harg3 arg4 harg4 arg5 harg5) K := by
  simp only [cc1__gcn_kernel_eq_skeleton]; unfold cc1__gcn_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_4 _)

end Cert.KernelIdeal.Hand

end
-- ==== Proof.Dat1.lean ====
import proofs.«145925_j77386720739714_1_alg».proof.Proof.Gen.KernelIdeal.Launch
import proofs.«145925_j77386720739714_1_alg».proof.Proof.Gen.KernelIdeal.Skeleton
import proofs.«145925_j77386720739714_1_alg».proof.Proof.Gen.KernelIdeal.Points
import proofs.«145925_j77386720739714_1_alg».proof.Proof.Body1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The graph-convolution region: its proof data and its body obligation, at the contents `V` the region is entered with -/

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! An input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- The proof data: the arrays as the region finds them; after the body each input's buffer at its block and the
    output's at `out1_4` of the input blocks; the scoped rest and the generator register untouched; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t
    = out1_4 (iblk1 V c 0 t) (iblk1 V c 1 t) (iblk1 V c 2 t) (iblk1 V c 3 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.Vals.lean ====
import proofs.«145925_j77386720739714_1_alg».proof.Proof.Gen.KernelIdeal.Launch
import proofs.«145925_j77386720739714_1_alg».proof.Proof.Gen.KernelIdeal.Skeleton
import proofs.«145925_j77386720739714_1_alg».proof.Proof.Gen.KernelIdeal.Points
import proofs.«145925_j77386720739714_1_alg».proof.Proof.Dat0
import proofs.«145925_j77386720739714_1_alg».proof.Proof.Dat1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The buffers' contents at each boundary between @main's items -/

variable (m : (ℓ : Loc nD τ sig) → Buf (Elt F) ℓ)

/-- Core `c`'s buffers at launch. -/
abbrev W0 : Dev nD → Valuation τ sig (Elt F) := fun c b => m (c, b)
/-- After the two reshapes of the second layer's weights and bias (the edge-weight region's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b

/-- What the edge-weight region leaves in the weight matrix's buffer. -/
def adjOut (c : Dev nD) : Buf (Elt F) ((c : Thread nD τ).loc main_v2) := (dat0 (V1 m) c).arrAt 6 cfg0.N

/-- At the edge-weight region's exit: the weight matrix at what the write-backs leave, every other buffer as entered. -/
def W2 (c : Dev nD) : Valuation τ sig (Elt F) := Function.update (W1 m c) (Proc.devRef .tc main_v2) (adjOut m c)
abbrev V2 : (c : Dev nD) → (b : Ref sig .tc) → Buf (Elt F) ((c : Thread nD τ).loc b) := fun c b => W2 m c b

theorem V2_main_v2 (c : Dev nD) : V2 m c main_v2 = adjOut m c := by
  show Function.update (W1 m c) (Proc.devRef .tc main_v2) (adjOut m c) (Proc.devRef .tc main_v2) = _
  exact Function.update_self ..
theorem V2_of_ne (c : Dev nD) (b : Ref sig .tc) (hb : b ≠ main_v2) : V2 m c b = V1 m c b := by
  show Function.update (W1 m c) (Proc.devRef .tc main_v2) (adjOut m c) (Proc.devRef .tc b) = _
  exact Function.update_of_ne (StableHlo.devRef_ne_of_ne hb) ..

/-- What the graph-convolution region leaves in the output's buffer. -/
def gcnOut (c : Dev nD) : Buf (Elt F) ((c : Thread nD τ).loc main_v3) := (dat1 (V2 m) c).arrAt 4 cfg1.N

/-- At the graph-convolution region's exit: the output at what the write-back leaves, every other buffer as entered. -/
def W3 (c : Dev nD) : Valuation τ sig (Elt F) := Function.update (W2 m c) (Proc.devRef .tc main_v3) (gcnOut m c)
abbrev V3 : (c : Dev nD) → (b : Ref sig .tc) → Buf (Elt F) ((c : Thread nD τ).loc b) := fun c b => W3 m c b

theorem V3_main_v3 (c : Dev nD) : V3 m c main_v3 = gcnOut m c := by
  show Function.update (W2 m c) (Proc.devRef .tc main_v3) (gcnOut m c) (Proc.devRef .tc main_v3) = _
  exact Function.update_self ..
theorem V3_of_ne (c : Dev nD) (b : Ref sig .tc) (hb : b ≠ main_v3) : V3 m c b = V2 m c b := by
  show Function.update (W2 m c) (Proc.devRef .tc main_v3) (gcnOut m c) (Proc.devRef .tc b) = _
  exact Function.update_of_ne (StableHlo.devRef_ne_of_ne hb) ..

/-- The references the two reshapes write. -/
theorem hostOps0_writes : (hostOps0 : List (HloOp τ sig (Elt F))).Forall fun op => op.writes ⊆ (([main_v0, main_v1] : List (Ref sig .tc)).map (Proc.devRef (τ := τ) .tc)).toFinset := by
  simp only [List.Forall]
  exact ⟨by simp only [StableHlo.reshape_writes, Finset.singleton_subset_iff, List.mem_toFinset]; exact List.mem_map_of_mem (by decide),
    by simp only [StableHlo.reshape_writes, Finset.singleton_subset_iff, List.mem_toFinset]; exact List.mem_map_of_mem (by decide)⟩

/-- A buffer the reshapes do not write holds its launch contents at the first region's entry. -/
theorem V1_of (c : Dev nD) (r : Ref sig .tc) (h : r ∉ ([main_v0, main_v1] : List (Ref sig .tc))) : V1 m c r = m ((c : Thread nD τ).loc r) :=
  StableHlo.after_of_writes_sub hostOps0 _ (hostOps0_writes (F := F)) h

/-- An argument array is written by no reshape and no region: at the end it holds its launch contents. -/
theorem V3_arg (c : Dev nD) (r : Ref sig .tc) (h3 : r ≠ main_v3) (h2 : r ≠ main_v2) (h1 : r ∉ ([main_v0, main_v1] : List (Ref sig .tc))) :
    V3 m c r = m ((c : Thread nD τ).loc r) :=
  (V3_of_ne m c r h3).trans ((V2_of_ne m c r h2).trans (V1_of m c r h1))

end Cert.KernelIdeal.Hand

end
-- ==== Proof.Run.lean ====
import proofs.«145925_j77386720739714_1_alg».proof.Proof.Gen.KernelIdeal.Launch
import proofs.«145925_j77386720739714_1_alg».proof.Proof.Gen.KernelIdeal.Skeleton
import proofs.«145925_j77386720739714_1_alg».proof.Proof.Gen.KernelIdeal.Points
import proofs.«145925_j77386720739714_1_alg».proof.Proof.Vals
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The launch: @main's segments from the launch contents to the return -/

variable (m : (ℓ : Loc nD τ sig) → Buf (Elt F) ℓ) (ρ : Dev nD → PrngReg)

/-! ## The edge-weight region's arrays out of the unscoped buffers and back

  Two of its windows are on the feature array: each holds one half of that buffer's points-to. -/

/-- The listed arrays of the edge-weight region, one buffer each. -/
theorem arrBufs0_eq (c : Dev nD) (V : (b : Ref sig .tc) → Buf (Elt F) ((c : Thread nD τ).loc b)) :
    (Pipeline.arrBufs (Ix := Unit) (Name := ℕ) (U := UR sig nD τ) (Lvl := ℕ) spec0 c V : sProp 𝕄)
      = iprop((((c : Thread nD τ).loc main_arg0) ↦{fullShare} V main_arg0) ∗ (((c : Thread nD τ).loc main_arg1) ↦{fullShare} V main_arg1)
        ∗ (((c : Thread nD τ).loc main_arg2) ↦{fullShare} V main_arg2) ∗ (((c : Thread nD τ).loc main_v0) ↦{fullShare} V main_v0)
        ∗ (((c : Thread nD τ).loc main_v1) ↦{fullShare} V main_v1) ∗ (((c : Thread nD τ).loc main_v2) ↦{fullShare} V main_v2)) := by
  unfold Pipeline.arrBufs
  exact bigSep_eq_bigSepL_of_eq [main_arg0, main_arg1, main_arg2, main_v0, main_v1, main_v2] (by decide) (by decide) _

theorem share0_0 (c : Dev nD) (V) : (dat0 (F := F) V c).share 0 = fullShare.left := rfl
theorem share0_1 (c : Dev nD) (V) : (dat0 (F := F) V c).share 1 = fullShare.right := rfl
theorem share0_2 (c : Dev nD) (V) : (dat0 (F := F) V c).share 2 = fullShare := rfl
theorem share0_3 (c : Dev nD) (V) : (dat0 (F := F) V c).share 3 = fullShare := rfl
theorem share0_4 (c : Dev nD) (V) : (dat0 (F := F) V c).share 4 = fullShare := rfl
theorem share0_5 (c : Dev nD) (V) : (dat0 (F := F) V c).share 5 = fullShare := rfl
theorem share0_6 (c : Dev nD) (V) : (dat0 (F := F) V c).share 6 = fullShare := rfl

/-- The edge-weight region's arrays at contents `G`, listed: the feature array's two halves, the five others whole. -/
theorem arrays0_eq (c : Dev nD) (V) (G : (w : Fin cfg0.W) → Buf (Elt F) ((cfg0.win w).arr.view.loc (c : Thread nD τ))) :
    ((dat0 (F := F) V c).arrays G : sProp 𝕄)
      = iprop((((c : Thread nD τ).loc main_arg0) ↦{fullShare.left} G 0) ∗ (((c : Thread nD τ).loc main_arg0) ↦{fullShare.right} G 1)
        ∗ (((c : Thread nD τ).loc main_arg1) ↦{fullShare} G 2) ∗ (((c : Thread nD τ).loc main_arg2) ↦{fullShare} G 3)
        ∗ (((c : Thread nD τ).loc main_v0) ↦{fullShare} G 4) ∗ (((c : Thread nD τ).loc main_v1) ↦{fullShare} G 5)
        ∗ (((c : Thread nD τ).loc main_v2) ↦{fullShare} G 6)) := by
  unfold Dat.arrays
  rw [bigSep_W0, (arr_whole0 0).set_eq_univ, (arr_whole0 2).set_eq_univ, (arr_whole0 3).set_eq_univ,
    (arr_whole0 4).set_eq_univ, (arr_whole0 5).set_eq_univ, (arr_whole0 6).set_eq_univ,
    share0_0, share0_1, share0_2, share0_3, share0_4, share0_5, share0_6]

/-- A whole buffer's points-to is its two halves. -/
theorem halve (c : Dev nD) (f : Buf (Elt F) ((c : Thread nD τ).loc main_arg0)) :
    ((((c : Thread nD τ).loc main_arg0) ↦{fullShare} f : sProp 𝕄))
      ⊣⊢ iprop((((c : Thread nD τ).loc main_arg0) ↦{fullShare.left} f) ∗ (((c : Thread nD τ).loc main_arg0) ↦{fullShare.right} f)) :=
  pointsTo_share (PosShare.mem_left_op_right fullShare)

/-- ENTRY: the unscoped buffers at the entry contents are the region's arrays at those contents — the feature array's
    points-to halved between the two windows on it — and the rest. -/
theorem split0 (c : Dev nD) :
    (unscopedBufs c (V1 m c) : sProp 𝕄)
      ⊢ iprop((dat0 (V1 m) c).arrays ((dat0 (V1 m) c).arrAt · 0) ∗ Pipeline.unscopedRest spec0 c (V1 m c)) := by
  rw [show (unscopedBufs c (V1 m c) : sProp 𝕄) = iprop(Pipeline.arrBufs spec0 c (V1 m c) ∗ Pipeline.unscopedRest spec0 c (V1 m c))
      from Pipeline.unscopedBufs_split₀ cfgs 0 winFacts₀0.arr_unscoped c (V1 m c), arrBufs0_eq, arrays0_eq]
  iintro ⟨⟨H0, H1, H2, H3, H4, H5⟩, Hrest⟩
  ihave H0' := (halve c (V1 m c main_arg0)).1 $$ H0
  icases H0' with ⟨H0l, H0r⟩
  isplitr [Hrest]
  · isplitl [H0l]; · iexact H0l
    isplitl [H0r]; · iexact H0r
    isplitl [H1]; · iexact H1
    isplitl [H2]; · iexact H2
    isplitl [H3]; · iexact H3
    isplitl [H4]; · iexact H4
    iexact H5
  · iexact Hrest

/-- An input window's array is never written: at the end it holds what it held at entry. -/
theorem arrAt0_in (c : Dev nD) (w : Fin cfg0.W) (hw : (cfg0.win w).isOut = false) :
    (dat0 (V1 m) c).arrAt w cfg0.N = V1 m c (Pipeline.arrRef spec0 w) :=
  ((dat0 (V1 m) c).arrAt_in w hw _).trans (A_eq0 (V1 m) c w)

/-- EXIT: the region's arrays at their final contents and the rest are the unscoped buffers at the exit contents —
    the two halves of the feature array, both still at its entry contents, joined. -/
theorem join0 (c : Dev nD) :
    iprop((dat0 (V1 m) c).arrays ((dat0 (V1 m) c).arrAt · cfg0.N) ∗ Pipeline.unscopedRest (Ix := Unit) (Name := ℕ) (U := UR sig nD τ) (Lvl := ℕ) spec0 c (V1 m c))
      ⊢ (unscopedBufs c (V2 m c) : sProp 𝕄) := by
  rw [show (unscopedBufs c (V2 m c) : sProp 𝕄) = iprop(Pipeline.arrBufs spec0 c (V2 m c) ∗ Pipeline.unscopedRest spec0 c (V2 m c))
      from Pipeline.unscopedBufs_split₀ cfgs 0 winFacts₀0.arr_unscoped c (V2 m c), arrBufs0_eq, arrays0_eq, unscopedRest0_eq, unscopedRest0_eq,
    arrAt0_in m c 0 rfl, arrAt0_in m c 1 rfl, arrAt0_in m c 2 rfl, arrAt0_in m c 3 rfl, arrAt0_in m c 4 rfl, arrAt0_in m c 5 rfl,
    V2_of_ne m c main_arg0 (by decide), V2_of_ne m c main_arg1 (by decide), V2_of_ne m c main_arg2 (by decide),
    V2_of_ne m c main_v0 (by decide), V2_of_ne m c main_v1 (by decide), V2_main_v2,
    V2_of_ne m c main_arg3 (by decide), V2_of_ne m c main_arg4 (by decide), V2_of_ne m c main_arg5 (by decide),
    V2_of_ne m c main_arg6 (by decide), V2_of_ne m c main_v3 (by decide)]
  iintro ⟨⟨H0l, H0r, H1, H2, H3, H4, H5⟩, Hrest⟩
  ihave H0 := (halve c (V1 m c main_arg0)).2 $$ [H0l H0r]
  · isplitl [H0l]; · iexact H0l
    iexact H0r
  isplitr [Hrest]
  · isplitl [H0]; · iexact H0
    isplitl [H1]; · iexact H1
    isplitl [H2]; · iexact H2
    isplitl [H3]; · iexact H3
    isplitl [H4]; · iexact H4
    iexact H5
  · iexact Hrest

/-! ## The graph-convolution region's exit contents -/

theorem arrAt1_in (c : Dev nD) (w : Fin cfg1.W) (hw : (cfg1.win w).isOut = false) :
    (dat1 (V2 m) c).arrAt w cfg1.N = V2 m c (Pipeline.arrRef spec1 w) :=
  ((dat1 (V2 m) c).arrAt_in w hw _).trans (A_eq1 (V2 m) c w)

/-- At the region's exit each of its arrays holds what the pipeline leaves, -/
theorem hF1 (c : Dev nD) : ∀ w : Fin cfg1.W, (dat1 (V2 m) c).arrAt w cfg1.N = V3 m c (Pipeline.arrRef spec1 w)
  | ⟨0, _⟩ => (arrAt1_in m c 0 rfl).trans (V3_of_ne m c main_v2 (by decide)).symm
  | ⟨1, _⟩ => (arrAt1_in m c 1 rfl).trans (V3_of_ne m c main_arg0 (by decide)).symm
  | ⟨2, _⟩ => (arrAt1_in m c 2 rfl).trans (V3_of_ne m c main_arg5 (by decide)).symm
  | ⟨3, _⟩ => (arrAt1_in m c 3 rfl).trans (V3_of_ne m c main_arg6 (by decide)).symm
  | ⟨4, _⟩ => (V3_main_v3 m c).symm
/-- and every other buffer what it held at entry. -/
theorem hrest1 (c : Dev nD) : ∀ b, b ∉ Finset.univ.image (Pipeline.arrRef spec1) → V3 m c b = V2 m c b :=
  fun b hb => V3_of_ne m c b fun e => hb (Finset.mem_image.mpr ⟨4, Finset.mem_univ _, e.symm⟩)

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V2 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and nothing owed. -/
abbrev R (c : Dev nD) : sProp 𝕄 := iprop((∃ r, prngReg c r) ∗ ∃ W, owes (c : Thread nD τ) (0 : CellTallies nD τ sig Unit) W)

theorem hostOps0_fresh : (hostOps0 : List (HloOp τ sig (Elt F))).Forall fun op => op.fresh = ∅ := by
  simp only [List.Forall]; repeat' constructor

/-- The reshapes as a segment over the unscoped references from the launch contents. -/
abbrev hseg0 : Pipeline.HostSeg (Name := ℕ) (U := UR sig nD τ) (pcfgs (F := F)) defs₀ 𝒱₀ L lv :=
  Pipeline.HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (W0 m) R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents, the generator
    register at some state. -/
abbrev Tₙ (c : Dev nD) : sProp 𝕄 := iprop(StableHlo.held (c : Thread nD τ) (Pipeline.ucRefs τ sig) (W3 m c) ∗ ∃ r, prngReg c r)

/-! ## The regions as segments -/

set_option backward.isDefEq.respectTransparency.types false in
/-- The edge-weight region: entered from every unscoped buffer at `W1`, left at `W2`. -/
def reg0 : Pipeline.RegionSeg (pcfgs (F := F)) adm (pdats m) () defs₀ 𝒱₀ L lv 0 where
  win := winFacts₀0
  block_pos := block_pos0
  stage_whole := stage_whole0
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := split0 m c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin : iprop((pdats m 0 c).arrays ((pdats m 0 c).arrAt · cfg0.N)
          ∗ Pipeline.unscopedRest (Ix := Unit) (Name := ℕ) (U := UR sig nD τ) (Lvl := ℕ) spec0 c (V1 m c))
        ⊢ (unscopedBufs c (V2 m c) : sProp 𝕄) := join0 m c
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The graph-convolution region: entered from every unscoped buffer at `W2`, left at `W3`. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's three segments in order: the reshapes, then the two regions. -/
abbrev segs : List (Pipeline.Seg (pcfgs (F := F)) adm (pdats m) () defs₀ 𝒱₀ L lv) :=
  [ .host (hseg0 m), .region (reg0 m), .region (reg1 m) ]

theorem main_run (c : Dev nD) : main (F := F) c = Pipeline.Seg.run (segs m) := (main_chain c).trans (by chain_rfl)

set_option backward.isDefEq.respectTransparency.types false in
/-- THE RUN: from any memory with zero counters every weakly fair execution of @main terminates, nothing faulting, and
    every final memory holds every unscoped buffer at the last boundary's contents `W3`: the arguments as launched,
    the weight matrix and the output at what the two regions' write-backs leave. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W3 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h c => h c)

end Cert.KernelIdeal.Hand

end
-- ==== Proof.Frames.lean ====
import proofs.«145925_j77386720739714_1_alg».proof.Proof.Gen.KernelIdeal.Launch
import proofs.«145925_j77386720739714_1_alg».proof.Proof.Gen.KernelIdeal.Skeleton
import proofs.«145925_j77386720739714_1_alg».proof.Proof.Gen.KernelIdeal.Points
import proofs.«145925_j77386720739714_1_alg».proof.Proof.Run
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # What the run says of the arguments and of the two results -/

variable (m : (ℓ : Loc nD τ sig) → Buf (Elt F) ℓ) (ρ : Dev nD → PrngReg)

/-- Every weakly fair execution terminates, nothing faulting, with the two results at what the regions leave and every
    argument array as launched. -/
theorem results : θ_run defs (onTc (τ := τ) (main (F := F))) ⟨m, fun _ => 0, ρ⟩ (fun r => ∀ c : Dev nD,
      r.2.mem ((c.tc : Thread nD τ).loc main_v3) = V3 m c main_v3
      ∧ r.2.mem ((c.tc : Thread nD τ).loc main_v2) = V3 m c main_v2
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨h c _ (mem_uc main_v3 (by decide)),
      h c _ (mem_uc main_v2 (by decide)),
      (h c _ (mem_uc main_arg0 (by decide))).trans (V3_arg m c main_arg0 (by decide) (by decide) (by decide)),
      (h c _ (mem_uc main_arg1 (by decide))).trans (V3_arg m c main_arg1 (by decide) (by decide) (by decide)),
      (h c _ (mem_uc main_arg2 (by decide))).trans (V3_arg m c main_arg2 (by decide) (by decide) (by decide)),
      (h c _ (mem_uc main_arg3 (by decide))).trans (V3_arg m c main_arg3 (by decide) (by decide) (by decide)),
      (h c _ (mem_uc main_arg4 (by decide))).trans (V3_arg m c main_arg4 (by decide) (by decide) (by decide)),
      (h c _ (mem_uc main_arg5 (by decide))).trans (V3_arg m c main_arg5 (by decide) (by decide) (by decide)),
      (h c _ (mem_uc main_arg6 (by decide))).trans (V3_arg m c main_arg6 (by decide) (by decide) (by decide))⟩)
    (run_main m ρ)

/-- The frame: the run ends and every argument array holds its launch contents. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => (h c).2.2) (results m ρ)

end Cert.KernelIdeal.Hand

end
-- ==== Proof.Spec.lean ====
/-
  The mathematics both programs compute, over the extended reals, written once.

  From node features `x : [1024, 128]` every ordered pair of nodes `(i, j)` gets an edge weight: the coordinatewise
  distance `|x i d - x j d|` goes through a two-layer perceptron (a 128 by 128 layer with bias and a rectifier, then a
  128-vector with a scalar bias) and a logistic. The graph-convolution output normalises the weight matrix by the inverse
  square roots of two degree vectors, multiplies by the projected features `x · Wg`, adds a bias and applies a leaky
  rectifier.

  The distance is symmetric in its two arguments on ALL extended reals (at the infinities both orders give `⊤`), so the
  edge weights form a symmetric matrix: its row sums are its column sums. That is the one law that joins a program
  normalising by a row degree on the left and a column degree on the right to one using row degrees on both sides.
-/
import Idealize.ShloMosaic.PureOps.Ideal

noncomputable section

namespace Cert.Gcn

open Idealize.ShloMosaic

/-- `|a - b|` as both programs compute it: the larger of the difference and its negation. -/
def absDiff (a b : EReal) : EReal := max (a - b) (-(a - b))

/-- The distance does not depend on the order of its arguments, at the infinities either. -/
theorem absDiff_comm (a b : EReal) : absDiff a b = absDiff b a := by
  unfold absDiff
  induction a using EReal.rec with
  | bot =>
    induction b using EReal.rec with
    | bot => rfl
    | coe s => simp
    | top => simp
  | coe r =>
    induction b using EReal.rec with
    | bot => simp
    | coe s =>
      rw [← EReal.coe_sub, ← EReal.coe_sub, ← EReal.coe_neg, ← EReal.coe_neg, neg_sub, neg_sub, max_comm]
    | top => simp
  | top =>
    induction b using EReal.rec with
    | bot => simp
    | coe s => simp
    | top => rfl

variable (x : Fin 1024 → Fin 128 → EReal) (W1 : Fin 128 → Fin 128 → EReal) (b1 w2 : Fin 128 → EReal) (b2 : EReal)

/-- Hidden unit `h` of the pair `(i, j)`: the first layer on the distances, rectified at the zero word. -/
def hidden (i j : Fin 1024) (h : Fin 128) : EReal :=
  max ((∑ d : Fin 128, absDiff (x i d) (x j d) * W1 d h) + b1 h) (Ideal.ofBits .f32 0x00000000#32)

/-- The edge weight of the pair `(i, j)`: the logistic of the second layer. -/
def edge (i j : Fin 1024) : EReal :=
  Ideal.logistic ((∑ h : Fin 128, hidden x W1 b1 i j h * w2 h) + b2)

theorem hidden_symm (i j : Fin 1024) (h : Fin 128) : hidden x W1 b1 i j h = hidden x W1 b1 j i h := by
  unfold hidden
  exact congrArg (fun s => max (s + b1 h) _) (Finset.sum_congr rfl fun d _ => by rw [absDiff_comm])

/-- The edge weights are a symmetric matrix. -/
theorem edge_symm (i j : Fin 1024) : edge x W1 b1 w2 b2 i j = edge x W1 b1 w2 b2 j i := by
  unfold edge
  exact congrArg (fun s => Ideal.logistic (s + b2)) (Finset.sum_congr rfl fun h _ => by rw [hidden_symm])

/-- Row degree and column degree of a weight matrix. -/
def degRow (a : Fin 1024 → Fin 1024 → EReal) (i : Fin 1024) : EReal := ∑ l : Fin 1024, a i l
def degCol (a : Fin 1024 → Fin 1024 → EReal) (j : Fin 1024) : EReal := ∑ l : Fin 1024, a l j

/-- For a symmetric matrix the two degrees agree. -/
theorem degCol_eq_degRow (a : Fin 1024 → Fin 1024 → EReal) (ha : ∀ i j, a i j = a j i) : degCol a = degRow a := by
  funext j
  exact Finset.sum_congr rfl fun l _ => ha l j

/-- The leaky rectifier as both programs spell it: compare with the zero word, keep the value or scale it by the
    word of `0.2`. -/
def leaky (v : EReal) : EReal :=
  Scalar.select (Ideal.cmp .ogt v (Ideal.ofBits .f32 0x00000000#32)) v (Ideal.ofBits .f32 0x3E4CCCCD#32 * v)

/-- The graph-convolution output at `(i, j)` from a weight matrix `a`, a left degree `dl` and a right degree `dr`. -/
def gcn (dl dr : Fin 1024 → EReal) (a : Fin 1024 → Fin 1024 → EReal) (Wg : Fin 128 → Fin 128 → EReal) (bg : Fin 128 → EReal)
    (i : Fin 1024) (j : Fin 128) : EReal :=
  leaky ((∑ k : Fin 1024, ((Ideal.rsqrt (dl i) * a i k) * Ideal.rsqrt (dr k)) * (∑ d : Fin 128, x k d * Wg d j)) + bg j)

end Cert.Gcn

end
-- ==== Proof.LibPlainProduct.lean ====
/-
  A plain matrix product read at an index, over any extents.

  For `x : [M, K]` and `y : [K, N]` and a dimension record between `[M, K]`, `[K, N]` and `[M, N]` that contracts the
  left operand's second axis with the right operand's first one, the sum over the contraction index in which a
  `tpu.matmul` into the zero accumulator and a host `dot_general` are both read at the ideal values is, at output index
  `(i, j)`, the textbook `Σ_d x[i, d] · y[d, j]`. It is stated for any record whose operand indices have, axis by axis,
  the coordinates a plain product has (four equations, each closed by `rfl` at a literal record), so one statement
  serves records of different extents.
-/
import Idealize.ShloMosaic.PureOps.Ideal.Laws
import Idealize.ShloMosaic.Lib.ValueIdx

noncomputable section

namespace Idealize.ShloMosaic.PlainProduct

open Idealize.ShloMosaic Idealize.ShloMosaic.ValueIdx

/-- **The contraction sum of a plain product, re-indexed by its one coordinate.** `D` is any dimension record between
    `[M, K]`, `[K, N]` and `[M, N]` with one contracted axis of extent `K` whose left operand index at output index `j`
    and contraction index `k` is `(j 0, k)` and whose right one is `(k, j 1)`. -/
theorem sum_contr {M K N : Nat}
    (D : DotDims ⟨2, ![M, K]⟩ ⟨2, ![K, N]⟩ ⟨2, ![M, N]⟩)
    (hr : D.contr.rank = 1) (hs : D.contr.size ⟨0, by omega⟩ = K)
    (hl0 : ∀ j k, (D.lhsIdx j k 0).val = (j 0).val) (hl1 : ∀ j k, (D.lhsIdx j k 1).val = (k ⟨0, by omega⟩).val)
    (hr0 : ∀ j k, (D.rhsIdx j k 0).val = (k ⟨0, by omega⟩).val) (hr1 : ∀ j k, (D.rhsIdx j k 1).val = (j 1).val)
    (x : (⟨2, ![M, K]⟩ : Shape).Idx → EReal) (y : (⟨2, ![K, N]⟩ : Shape).Idx → EReal)
    (i : Fin M) (j : Fin N) :
    ∑ k : D.contr.Idx, x (D.lhsIdx (ix2 i j) k) * y (D.rhsIdx (ix2 i j) k)
      = ∑ d : Fin K, x (ix2 i d) * y (ix2 d j) := by
  rw [← Equiv.sum_comp (contrEquiv1 D K hr hs).symm]
  refine Finset.sum_congr rfl fun d _ => ?_
  have el : D.lhsIdx (ix2 i j) ((contrEquiv1 D K hr hs).symm d) = ix2 i d := by
    funext a
    refine Fin.ext ?_
    match a with
    | ⟨0, _⟩ => exact hl0 _ _
    | ⟨1, _⟩ => exact (hl1 _ _).trans (contrEquiv1_symm_val D K hr hs d)
  have er : D.rhsIdx (ix2 i j) ((contrEquiv1 D K hr hs).symm d) = ix2 d j := by
    funext a
    refine Fin.ext ?_
    match a with
    | ⟨0, _⟩ => exact (hr0 _ _).trans (contrEquiv1_symm_val D K hr hs d)
    | ⟨1, _⟩ => exact hr1 _ _
  rw [el, er]

/-- A `tpu.matmul` into the zero accumulator, at the ideal values, read at `(i, j)`. -/
theorem matmul_zero_apply {M K N : Nat} {φ₁ φ₂ : FTy}
    (D : DotDims ⟨2, ![M, K]⟩ ⟨2, ![K, N]⟩ ⟨2, ![M, N]⟩)
    (hr : D.contr.rank = 1) (hs : D.contr.size ⟨0, by omega⟩ = K)
    (hl0 : ∀ j k, (D.lhsIdx j k 0).val = (j 0).val) (hl1 : ∀ j k, (D.lhsIdx j k 1).val = (k ⟨0, by omega⟩).val)
    (hr0 : ∀ j k, (D.rhsIdx j k 0).val = (k ⟨0, by omega⟩).val) (hr1 : ∀ j k, (D.rhsIdx j k 1).val = (j 1).val)
    (prec : Option ContractPrecision)
    (x : FVec Ideal ⟨2, ![M, K]⟩ φ₁) (y : FVec Ideal ⟨2, ![K, N]⟩ φ₂) (i : Fin M) (j : Fin N) :
    matmul D prec x y (constant (F := Ideal) ⟨2, ![M, N]⟩ .f32 0x00000000#32) (ix2 i j)
      = ∑ d : Fin K, x (ix2 i d) * y (ix2 d j) :=
  (Ideal.matmul_constant_zero_apply D prec x y (ix2 i j)).trans (sum_contr D hr hs hl0 hl1 hr0 hr1 x y i j)

/-- A host `dot_general`, at the ideal values, read at `(i, j)`. -/
theorem dotGeneral_apply {M K N : Nat} {φ₁ φ₂ : FTy}
    (D : DotDims ⟨2, ![M, K]⟩ ⟨2, ![K, N]⟩ ⟨2, ![M, N]⟩)
    (hr : D.contr.rank = 1) (hs : D.contr.size ⟨0, by omega⟩ = K)
    (hl0 : ∀ j k, (D.lhsIdx j k 0).val = (j 0).val) (hl1 : ∀ j k, (D.lhsIdx j k 1).val = (k ⟨0, by omega⟩).val)
    (hr0 : ∀ j k, (D.rhsIdx j k 0).val = (k ⟨0, by omega⟩).val) (hr1 : ∀ j k, (D.rhsIdx j k 1).val = (j 1).val)
    (prec : Option ContractPrecision)
    (x : FVec Ideal ⟨2, ![M, K]⟩ φ₁) (y : FVec Ideal ⟨2, ![K, N]⟩ φ₂) (i : Fin M) (j : Fin N) :
    Host.dotGeneral D prec x y (ix2 i j) = ∑ d : Fin K, x (ix2 i d) * y (ix2 d j) := by
  simp only [Host.dotGeneral]
  exact (Ideal.dotGeneral_apply D prec _ x y (ix2 i j)).trans (sum_contr D hr hs hl0 hl1 hr0 hr1 x y i j)

end Idealize.ShloMosaic.PlainProduct

end
-- ==== Proof.RefValue.lean ====
/-
  The reference's two results, read at one element: the edge weights and the graph convolution over them.
-/
import proofs.«145925_j77386720739714_1_alg».proof.Proof.Gen.ReferenceIdeal.Read
import proofs.«145925_j77386720739714_1_alg».proof.Proof.Spec
import proofs.«145925_j77386720739714_1_alg».proof.Proof.LibPlainProduct
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.ValueIdx

/-- The pairwise distance stage at `(i, j, d)`. -/
private theorem v5_at (x0 : FVec Ideal S1024x128 .f32) (i j : Fin 1024) (d : Fin 128) :
    val_main_v5 (F := Ideal) x0 (ix3 i j d) = Cert.Gcn.absDiff (x0 (ix2 i d)) (x0 (ix2 j d)) := by
  have e2 : idx_main_v0 (idx_main_v2 (ix3 i j d)) = ix2 i d :=
    funext fun a => Fin.ext (by match a with | ⟨0, _⟩ => rfl | ⟨1, _⟩ => rfl)
  have e3 : idx_main_v1 (idx_main_v3 (ix3 i j d)) = ix2 j d :=
    funext fun a => Fin.ext (by match a with | ⟨0, _⟩ => rfl | ⟨1, _⟩ => rfl)
  rw [val_main_v5_apply, val_main_v4_apply, val_main_v2_apply, val_main_v3_apply, val_main_v0_apply,
    val_main_v1_apply, e2, e3]
  rfl

/-- The rectified first layer at `(i, j, h)`. -/
private theorem v10_at (x0 : FVec Ideal S1024x128 .f32) (x1 : FVec Ideal S128x128 .f32) (x2 : FVec Ideal S128 .f32)
    (i j : Fin 1024) (h : Fin 128) :
    val_main_v10 (F := Ideal) x0 x1 x2 (ix3 i j h)
      = Cert.Gcn.hidden (fun p d => x0 (ix2 p d)) (fun d h => x1 (ix2 d h)) (fun h => x2 (ix1 h)) i j h := by
  have el : ∀ k : Fin 128, lidx_main_v6 (ix3 i j h) k = ix3 i j k := fun k =>
    funext fun a => Fin.ext (by match a with | ⟨0, _⟩ => rfl | ⟨1, _⟩ => rfl | ⟨2, _⟩ => rfl)
  have er : ∀ k : Fin 128, ridx_main_v6 (ix3 i j h) k = ix2 k h := fun k =>
    funext fun a => Fin.ext (by match a with | ⟨0, _⟩ => rfl | ⟨1, _⟩ => rfl)
  have e8 : idx_main_v7 (idx_main_v8 (ix3 i j h)) = ix1 h :=
    funext fun a => Fin.ext (by match a with | ⟨0, _⟩ => rfl)
  rw [val_main_v10_apply, val_main_v9_apply, val_main_v6_apply, val_main_v8_apply, val_main_v7_apply,
    val_main_call0_v0_apply, val_main_call0_cst_apply, e8]
  simp only [el, er, v5_at]
  rfl

/-- The second layer before the logistic at `(i, j)`. -/
private theorem v15_at (x0 : FVec Ideal S1024x128 .f32) (x1 : FVec Ideal S128x128 .f32) (x2 : FVec Ideal S128 .f32)
    (x3 : FVec Ideal S128x1 .f32) (x4 : FVec Ideal S1 .f32) (i j : Fin 1024) :
    val_main_v15 (F := Ideal) x0 x1 x2 x3 x4 (ix2 i j)
      = (∑ h : Fin 128, Cert.Gcn.hidden (fun p d => x0 (ix2 p d)) (fun d h => x1 (ix2 d h)) (fun h => x2 (ix1 h)) i j h
          * x3 (ix2 h 0)) + x4 (ix1 0) := by
  have e12 : idx_main_v12 (ix2 i j) = ix3 i j 0 :=
    funext fun a => Fin.ext (by
      match a with
      | ⟨0, _⟩ => show (i.val * 1024 + j.val) / 1024 = i.val; omega
      | ⟨1, _⟩ => show (i.val * 1024 + j.val) / 1 % 1024 = j.val; omega
      | ⟨2, _⟩ => rfl)
  have el : ∀ k : Fin 128, lidx_main_v11 (ix3 i j (0 : Fin 1)) k = ix3 i j k := fun k =>
    funext fun a => Fin.ext (by match a with | ⟨0, _⟩ => rfl | ⟨1, _⟩ => rfl | ⟨2, _⟩ => rfl)
  have er : ∀ k : Fin 128, ridx_main_v11 (ix3 i j (0 : Fin 1)) k = ix2 k 0 := fun k =>
    funext fun a => Fin.ext (by match a with | ⟨0, _⟩ => rfl | ⟨1, _⟩ => rfl)
  have e13 : val_main_v13 (F := Ideal) x4 (idx_main_v14 (ix2 i j)) = x4 (ix1 0) := by
    unfold val_main_v13
    refine shapeCast_apply x4 shapeCasts_S1_S_ _ (ix1 0) ?_
    exact (Shape.rowMajor_val_one _).trans (Shape.rowMajorPi_zero _ _).symm
  rw [val_main_v15_apply, val_main_v14_apply, e13, val_main_v12_apply, e12, val_main_v11_apply]
  simp only [el, er, v10_at]
  rfl

/-- The word of one is the number one. -/
private theorem ofBits_one_f32 : Ideal.ofBits .f32 0x3F800000#32 = 1 := by
  simp [Ideal.ofBits, Ideal.ieee, -EReal.coe_mul]; norm_num

/-- Element `(i, j)` of the reference's weight matrix is the pair's edge weight. -/
theorem adj_apply (x0 : FVec Ideal S1024x128 .f32) (x1 : FVec Ideal S128x128 .f32) (x2 : FVec Ideal S128 .f32)
    (x3 : FVec Ideal S128x1 .f32) (x4 : FVec Ideal S1 .f32) (i j : Fin 1024) :
    val_main_v21 (F := Ideal) x0 x1 x2 x3 x4 (ix2 i j)
      = Cert.Gcn.edge (fun p d => x0 (ix2 p d)) (fun d h => x1 (ix2 d h)) (fun h => x2 (ix1 h)) (fun h => x3 (ix2 h 0)) (x4 (ix1 0)) i j := by
  rw [val_main_v21_apply, val_main_v20_apply, val_main_cst_0_apply, val_main_v19_apply, val_main_v18_apply,
    val_main_cst_apply, val_main_v17_apply, val_main_v16_apply, v15_at]
  unfold Cert.Gcn.edge Ideal.logistic
  have one : FloatOps.ofBits (F := Ideal) .f32 0x3F800000#32 = (1 : EReal) := ofBits_one_f32
  rw [one]
  rfl

/-- The inverse square root of the row sums at `p`. -/
private theorem v23_at (x0 : FVec Ideal S1024x128 .f32) (x1 : FVec Ideal S128x128 .f32) (x2 : FVec Ideal S128 .f32)
    (x3 : FVec Ideal S128x1 .f32) (x4 : FVec Ideal S1 .f32) (p : Fin 1024) :
    val_main_v23 (F := Ideal) x0 x1 x2 x3 x4 (ix1 p)
      = Ideal.rsqrt (Cert.Gcn.degRow (fun p q => val_main_v21 (F := Ideal) x0 x1 x2 x3 x4 (ix2 p q)) p) := by
  have e : ∀ k : Fin 1024, idx_main_v22 (ix1 p) k = ix2 p k := fun k =>
    funext fun a => Fin.ext (by match a with | ⟨0, _⟩ => rfl | ⟨1, _⟩ => rfl)
  rw [val_main_v23_apply, val_main_v22_apply, val_main_cst_1_apply]
  simp only [e]
  show Ideal.rsqrt (Ideal.ofBits .f32 0x00000000#32 + _) = _
  rw [Ideal.ofBits_zero_f32, zero_add]
  rfl

/-- The normalised weight matrix at `(i, k)`. -/
private theorem v29_at (x0 : FVec Ideal S1024x128 .f32) (x1 : FVec Ideal S128x128 .f32) (x2 : FVec Ideal S128 .f32)
    (x3 : FVec Ideal S128x1 .f32) (x4 : FVec Ideal S1 .f32) (i k : Fin 1024) :
    val_main_v29 (F := Ideal) x0 x1 x2 x3 x4 (ix2 i k)
      = (Ideal.rsqrt (Cert.Gcn.degRow (fun p q => val_main_v21 (F := Ideal) x0 x1 x2 x3 x4 (ix2 p q)) i)
          * val_main_v21 (F := Ideal) x0 x1 x2 x3 x4 (ix2 i k))
        * Ideal.rsqrt (Cert.Gcn.degRow (fun p q => val_main_v21 (F := Ideal) x0 x1 x2 x3 x4 (ix2 p q)) k) := by
  have e25 : idx_main_v24 (idx_main_v25 (ix2 i k)) = ix1 i :=
    funext fun a => Fin.ext (by match a with | ⟨0, _⟩ => rfl)
  have e28 : idx_main_v27 (idx_main_v28 (ix2 i k)) = ix1 k :=
    funext fun a => Fin.ext (by match a with | ⟨0, _⟩ => rfl)
  rw [val_main_v29_apply, val_main_v26_apply, val_main_v25_apply, val_main_v24_apply, val_main_v28_apply,
    val_main_v27_apply, e25, e28, v23_at, v23_at]
  rfl

/-- The projected features at `(k, j)`. -/
private theorem v30_at (x0 : FVec Ideal S1024x128 .f32) (x5 : FVec Ideal S128x128 .f32) (k : Fin 1024) (j : Fin 128) :
    val_main_v30 (F := Ideal) x0 x5 (ix2 k j) = ∑ d : Fin 128, x0 (ix2 k d) * x5 (ix2 d j) := by
  have el : ∀ d : Fin 128, lidx_main_v30 (ix2 k j) d = ix2 k d := fun d =>
    funext fun a => Fin.ext (by match a with | ⟨0, _⟩ => rfl | ⟨1, _⟩ => rfl)
  have er : ∀ d : Fin 128, ridx_main_v30 (ix2 k j) d = ix2 d j := fun d =>
    funext fun a => Fin.ext (by match a with | ⟨0, _⟩ => rfl | ⟨1, _⟩ => rfl)
  rw [val_main_v30_apply]
  simp only [el, er]

/-- The convolution before the rectifier at `(i, j)`. -/
private theorem v34_at (x0 : FVec Ideal S1024x128 .f32) (x1 : FVec Ideal S128x128 .f32) (x2 : FVec Ideal S128 .f32)
    (x3 : FVec Ideal S128x1 .f32) (x4 : FVec Ideal S1 .f32) (x5 : FVec Ideal S128x128 .f32) (x6 : FVec Ideal S128 .f32)
    (i : Fin 1024) (j : Fin 128) :
    val_main_v34 (F := Ideal) x0 x1 x2 x3 x4 x5 x6 (ix2 i j)
      = (∑ k : Fin 1024,
          ((Ideal.rsqrt (Cert.Gcn.degRow (fun p q => val_main_v21 (F := Ideal) x0 x1 x2 x3 x4 (ix2 p q)) i)
              * val_main_v21 (F := Ideal) x0 x1 x2 x3 x4 (ix2 i k))
            * Ideal.rsqrt (Cert.Gcn.degRow (fun p q => val_main_v21 (F := Ideal) x0 x1 x2 x3 x4 (ix2 p q)) k))
          * (∑ d : Fin 128, x0 (ix2 k d) * x5 (ix2 d j))) + x6 (ix1 j) := by
  have el : ∀ k : Fin 1024, lidx_main_v31 (ix2 i j) k = ix2 i k := fun k =>
    funext fun a => Fin.ext (by match a with | ⟨0, _⟩ => rfl | ⟨1, _⟩ => rfl)
  have er : ∀ k : Fin 1024, ridx_main_v31 (ix2 i j) k = ix2 k j := fun k =>
    funext fun a => Fin.ext (by match a with | ⟨0, _⟩ => rfl | ⟨1, _⟩ => rfl)
  have e33 : idx_main_v32 (idx_main_v33 (ix2 i j)) = ix1 j :=
    funext fun a => Fin.ext (by match a with | ⟨0, _⟩ => rfl)
  rw [val_main_v34_apply, val_main_v31_apply, val_main_v33_apply, val_main_v32_apply, e33]
  simp only [el, er, v29_at, v30_at]
  rfl

/-- Element `(i, j)` of the reference's output is the graph convolution over its weight matrix with the ROW degree on
    both sides. -/
theorem out_apply (x0 : FVec Ideal S1024x128 .f32) (x1 : FVec Ideal S128x128 .f32) (x2 : FVec Ideal S128 .f32)
    (x3 : FVec Ideal S128x1 .f32) (x4 : FVec Ideal S1 .f32) (x5 : FVec Ideal S128x128 .f32) (x6 : FVec Ideal S128 .f32)
    (i : Fin 1024) (j : Fin 128) :
    val_main_v39 (F := Ideal) x0 x1 x2 x3 x4 x5 x6 (ix2 i j)
      = Cert.Gcn.gcn (fun k d => x0 (ix2 k d))
          (Cert.Gcn.degRow fun p q => val_main_v21 (F := Ideal) x0 x1 x2 x3 x4 (ix2 p q))
          (Cert.Gcn.degRow fun p q => val_main_v21 (F := Ideal) x0 x1 x2 x3 x4 (ix2 p q))
          (fun p q => val_main_v21 (F := Ideal) x0 x1 x2 x3 x4 (ix2 p q)) (fun d j => x5 (ix2 d j)) (fun j => x6 (ix1 j)) i j := by
  rw [val_main_v39_apply, val_main_v36_apply, val_main_v38_apply, val_main_v35_apply, val_main_cst_2_apply,
    val_main_v37_apply, val_main_cst_3_apply, v34_at]
  rfl

end Cert.ReferenceIdeal.RefValue

end
-- ==== Proof.HostVals.lean ====
import proofs.«145925_j77386720739714_1_alg».proof.Proof.Gen.KernelIdeal.Launch
import proofs.«145925_j77386720739714_1_alg».proof.Proof.Gen.KernelIdeal.Skeleton
import proofs.«145925_j77386720739714_1_alg».proof.Proof.Gen.KernelIdeal.Points
import proofs.«145925_j77386720739714_1_alg».proof.Proof.Vals
import Idealize.ShloMosaic.Lib.Pipeline.Value
import Idealize.ShloMosaic.Lib.ValueIdx
import Idealize.ShloMosaic.Lib.StableHlo.Run
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

/-! # What the two reshapes before the first region hold, index by index

  The second layer's weights `[128, 1]` are reshaped to a 128-vector and its bias `[1]` to a 1 by 1 matrix: entry `h` of the
  vector is entry `(h, 0)` of the matrix, and the one entry of the 1 by 1 matrix is the one entry of the bias. -/

variable (m : (ℓ : Loc nD τ sig) → Buf (Elt Ideal) ℓ)

theorem V1_main_v0_apply (c : Dev nD) (h : Fin 128) :
    (V1 m c main_v0 : S128.Idx → EReal) (ix1 h) = (m ((c : Thread nD τ).loc main_arg3) : S128x1.Idx → EReal) (ix2 h 0) := by
  have e : (V1 m c main_v0 : S128.Idx → EReal)
      = shapeCast S128 (m ((c : Thread nD τ).loc main_arg3) : S128x1.Idx → EReal) shapeCasts_S128x1_S128 := by
    show StableHlo.after hostOps0 (fun b => m (c, b)) (Proc.devRef .tc main_v0) = _
    after_results
    rfl
  rw [e]
  refine shapeCast_apply _ shapeCasts_S128x1_S128 (ix1 h) (ix2 h 0) ?_
  rewrite [Shape.rowMajor_val_two, Shape.rowMajor_val_one]
  show h.val * 1 + 0 = h.val
  omega

theorem V1_main_v1_apply (c : Dev nD) :
    (V1 m c main_v1 : S1x1.Idx → EReal) (ix2 0 0) = (m ((c : Thread nD τ).loc main_arg4) : S1.Idx → EReal) (ix1 0) := by
  have e : (V1 m c main_v1 : S1x1.Idx → EReal)
      = shapeCast S1x1 (m ((c : Thread nD τ).loc main_arg4) : S1.Idx → EReal) shapeCasts_S1_S1x1 := by
    show StableHlo.after hostOps0 (fun b => m (c, b)) (Proc.devRef .tc main_v1) = _
    after_results
    rfl
  rw [e]
  refine shapeCast_apply _ shapeCasts_S1_S1x1 (ix2 0 0) (ix1 0) ?_
  rewrite [Shape.rowMajor_val_one, Shape.rowMajor_val_two]
  rfl

end Cert.KernelIdeal.Hand

end
-- ==== Proof.Pay0Value.lean ====
/-
  The edge-weight kernel's stored value, read at one element of its 64 by 128 output block.
-/
import proofs.«145925_j77386720739714_1_alg».proof.Proof.Gen.KernelIdeal.Skeleton
import proofs.«145925_j77386720739714_1_alg».proof.Proof.Spec
import proofs.«145925_j77386720739714_1_alg».proof.Proof.LibPlainProduct
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.PayValue

open Cert.KernelIdeal Cert.KernelIdeal.Gen Idealize.ShloMosaic Idealize.ShloMosaic.ValueIdx

/-- The broadcast difference tensor at (p, q, d). -/
private theorem diff_apply (xi : Vec Ideal S64x128 .f32) (xj : Vec Ideal S128x128 .f32) (p : Fin 64) (q d : Fin 128) :
    absf (F := Ideal) (φ := .f32) (subf (F := Ideal) (φ := .f32)
        (broadcastTo S64x128x128 (shapeCast S64x1x128 xi shapeCasts_S64x128_S64x1x128) broadcasts_S64x1x128_S64x128x128)
        (broadcastTo S64x128x128 (shapeCast S1x128x128 xj shapeCasts_S128x128_S1x128x128) broadcasts_S1x128x128_S64x128x128))
      (ix3 p q d) = Cert.Gcn.absDiff (xi (ix2 p d)) (xj (ix2 q d)) := by
  have e1 : broadcastTo S64x128x128 (shapeCast S64x1x128 xi shapeCasts_S64x128_S64x1x128) broadcasts_S64x1x128_S64x128x128 (ix3 p q d)
      = xi (ix2 p d) := by
    refine (broadcastTo_apply _ _ (ix3 p q d) (ix3 p (0 : Fin 1) d) fun a => ?_).trans ?_
    · match a with
      | ⟨0, _⟩ => rfl
      | ⟨1, _⟩ => rfl
      | ⟨2, _⟩ => rfl
    · refine shapeCast_apply xi _ _ (ix2 p d) ?_
      rw [Shape.rowMajor_val_three, Shape.rowMajor_val_two]
      show p.val * 128 + d.val = (p.val * 1 + 0) * 128 + d.val
      omega
  have e2 : broadcastTo S64x128x128 (shapeCast S1x128x128 xj shapeCasts_S128x128_S1x128x128) broadcasts_S1x128x128_S64x128x128 (ix3 p q d)
      = xj (ix2 q d) := by
    refine (broadcastTo_apply _ _ (ix3 p q d) (ix3 (0 : Fin 1) q d) fun a => ?_).trans ?_
    · match a with
      | ⟨0, _⟩ => rfl
      | ⟨1, _⟩ => rfl
      | ⟨2, _⟩ => rfl
    · exact shapeCast_ab_1ab_apply xj _ _ q d
  show max (_ - _) (-(_ - _)) = _
  rw [e1, e2]
  rfl

/-- The first layer: the flattened product read back at (p, q, h). -/
private theorem layer1_apply (A : FVec Ideal S64x128x128 .bf16) (W : FVec Ideal S128x128 .bf16) (p : Fin 64) (q h : Fin 128) :
    shapeCast S64x128x128
        (matmul dot_S8192x128_S128x128_S8192x128_1_0_0_1_n_n none (shapeCast S8192x128 A shapeCasts_S64x128x128_S8192x128) W
          (constant (F := Ideal) S8192x128 .f32 0x00000000#32))
        shapeCasts_S8192x128_S64x128x128 (ix3 p q h)
      = ∑ d : Fin 128, A (ix3 p q d) * W (ix2 d h) := by
  have hr : p.val * 128 + q.val < 8192 := by have := p.isLt; have := q.isLt; omega
  refine (shapeCast_apply _ _ (ix3 p q h) (ix2 (⟨p.val * 128 + q.val, hr⟩ : Fin 8192) h) ?_).trans ?_
  · rw [Shape.rowMajor_val_three, Shape.rowMajor_val_two]
    rfl
  · refine (PlainProduct.matmul_zero_apply dot_S8192x128_S128x128_S8192x128_1_0_0_1_n_n rfl rfl (fun _ _ => rfl) (fun _ _ => rfl)
      (fun _ _ => rfl) (fun _ _ => rfl) none _ W _ h).trans ?_
    refine Finset.sum_congr rfl fun d _ => ?_
    refine congrArg (· * W (ix2 d h)) ?_
    refine shapeCast_apply A _ _ (ix3 p q d) ?_
    rw [Shape.rowMajor_val_three, Shape.rowMajor_val_two]
    rfl

/-- A 128-vector broadcast along the last axis of the 64 by 128 by 128 tensor. -/
private theorem lane_bcast_apply (b : FVec Ideal S128 .f32) (p : Fin 64) (q k : Fin 128) :
    broadcastTo S64x128x128 (shapeCast S1x1x128 b shapeCasts_S128_S1x1x128) broadcasts_S1x1x128_S64x128x128 (ix3 p q k)
      = b (ix1 k) := by
  refine (broadcastTo_apply _ _ (ix3 p q k) (ix3 (0 : Fin 1) (0 : Fin 1) k) fun a => ?_).trans ?_
  · match a with
    | ⟨0, _⟩ => rfl
    | ⟨1, _⟩ => rfl
    | ⟨2, _⟩ => rfl
  · refine shapeCast_apply b _ _ (ix1 k) ?_
    rw [Shape.rowMajor_val_three, Shape.rowMajor_val_one]
    show k.val = (0 * 1 + 0) * 128 + k.val
    omega

/-- The one-element block broadcast over the 64 by 128 block. -/
private theorem scalar_bcast_apply (b : FVec Ideal S1x1 .f32) (p : Fin 64) (q : Fin 128) :
    broadcastTo S64x128 (shapeCast S1x1 b shapeCasts_S1x1_S1x1) broadcasts_S1x1_S64x128 (ix2 p q) = b (ix2 0 0) := by
  rw [shapeCast_self]
  refine broadcastTo_apply _ _ (ix2 p q) (ix2 (0 : Fin 1) (0 : Fin 1)) fun a => ?_
  match a with
  | ⟨0, _⟩ => rfl
  | ⟨1, _⟩ => rfl

/-- Element `(p, q)` of the block the body stores, from the six loaded blocks: the pair's edge weight, with row `p` of the
    first block against row `q` of the second. -/
theorem k0_pay1_apply (xi : Vec Ideal S64x128 .f32) (xj : Vec Ideal S128x128 .f32) (w1 : Vec Ideal S128x128 .f32)
    (b1 w2 : Vec Ideal S128 .f32) (b2 : Vec Ideal S1x1 .f32) (p : Fin 64) (q : Fin 128) :
    k0_pay1 (F := Ideal) xi xj w1 b1 w2 b2 (ix2 p q)
      = Ideal.logistic ((∑ h : Fin 128,
          max ((∑ d : Fin 128, Cert.Gcn.absDiff (xi (ix2 p d)) (xj (ix2 q d)) * w1 (ix2 d h)) + b1 (ix1 h)) (Ideal.ofBits .f32 0x00000000#32)
            * w2 (ix1 h)) + b2 (ix2 0 0)) := by
  unfold k0_pay1
  show Ideal.logistic (_ + _) = _
  refine congrArg Ideal.logistic ?_
  refine congrArg₂ (· + ·) ?_ (scalar_bcast_apply b2 p q)
  refine (Ideal.multiReduction_add_single _ _ _ _ _ (ix2 p q)).trans ?_
  refine Finset.sum_congr rfl fun (k : Fin 128) _ => ?_
  have hl : reduces_S64x128x128_S64x128.lift (ix2 p q) k = ix3 p q k := by
    funext a
    match a with
    | ⟨0, _⟩ => exact Fin.ext rfl
    | ⟨1, _⟩ => exact Fin.ext rfl
    | ⟨2, _⟩ => exact Fin.ext rfl
  rw [hl, shapeCast_self]
  show max (_ + _) _ * _ = _
  refine congrArg₂ (· * ·) (congrArg₂ max (congrArg₂ (· + ·) ?_ (lane_bcast_apply b1 p q k)) rfl) (lane_bcast_apply w2 p q k)
  refine (layer1_apply _ _ p q k).trans ?_
  refine Finset.sum_congr rfl fun d _ => ?_
  exact congrArg (· * w1 (ix2 d k)) (diff_apply xi xj p q d)

end Cert.KernelIdeal.PayValue

end
-- ==== Proof.Adj.lean ====
import proofs.«145925_j77386720739714_1_alg».proof.Proof.Gen.KernelIdeal.Launch
import proofs.«145925_j77386720739714_1_alg».proof.Proof.Gen.KernelIdeal.Skeleton
import proofs.«145925_j77386720739714_1_alg».proof.Proof.Gen.KernelIdeal.Points
import proofs.«145925_j77386720739714_1_alg».proof.Proof.Dat0
import proofs.«145925_j77386720739714_1_alg».proof.Proof.Pay0Value
import Idealize.ShloMosaic.Lib.Pipeline.Value
import Idealize.ShloMosaic.Lib.ValueIdx
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

/-! # The weight matrix the edge-weight region leaves, index by index

  Grid point `t = (i, j)` of the 16 by 8 grid writes back the 64 by 128 block at block index `(i, j)`, computed from rows
  `64 i …` of the features (first window) against rows `128 j …` of the features (second window) and the whole of the four
  small operands. The 128 blocks tile the 1024 by 1024 matrix, so every entry `(r, s)` is the edge weight of the pair
  `(r, s)`. -/

variable (V : (c : Dev nD) → (b : Ref sig .tc) → Buf (Elt Ideal) ((c : Thread nD τ).loc b))

/-- The edge weights of the arrays the region is entered with. -/
def adjOf (c : Dev nD) : S1024x1024.Idx → EReal := fun i =>
  Cert.Gcn.edge (fun p d => (V c main_arg0 : S1024x128.Idx → EReal) (ix2 p d)) (fun d h => (V c main_arg1 : S128x128.Idx → EReal) (ix2 d h))
    (fun h => (V c main_arg2 : S128.Idx → EReal) (ix1 h)) (fun h => (V c main_v0 : S128.Idx → EReal) (ix1 h))
    ((V c main_v1 : S1x1.Idx → EReal) (ix2 0 0)) (i 0) (i 1)

private theorem hz2 : (![0, 0] : Fin 2 → Nat) = fun _ => 0 := funext fun a => by fin_cases a <;> rfl
private theorem hz1 : (![0] : Fin 1 → Nat) = fun _ => 0 := funext fun a => by fin_cases a <;> rfl

/-- The printed index maps, decided over the grid: the first window's row block is the output's row block, the second
    window's row block is the output's column block, every other input sits at block zero, and the output's block
    indices stay in the 16 by 8 box. -/
private theorem idx_facts : ∀ t : Fin cfg0.N,
    win0_0.index t (0 : Fin 2) = win0_6.index t (0 : Fin 2) ∧ win0_0.index t (1 : Fin 2) = 0
    ∧ win0_1.index t (0 : Fin 2) = win0_6.index t (1 : Fin 2) ∧ win0_1.index t (1 : Fin 2) = 0
    ∧ win0_2.index t (0 : Fin 2) = 0 ∧ win0_2.index t (1 : Fin 2) = 0
    ∧ win0_3.index t (0 : Fin 1) = 0 ∧ win0_4.index t (0 : Fin 1) = 0
    ∧ win0_5.index t (0 : Fin 2) = 0 ∧ win0_5.index t (1 : Fin 2) = 0
    ∧ win0_6.index t (0 : Fin 2) ≤ 15 ∧ win0_6.index t (1 : Fin 2) ≤ 7 :=
  (by decide +kernel : ∀ t : Fin grid0.N, _)

/-- Every block of the 16 by 8 box is some point's. -/
private theorem idx_onto : ∀ (q0 : Fin 16) (q1 : Fin 8), ∃ t : Fin cfg0.N, win0_6.index t = ![q0.val, q1.val] :=
  (by decide +kernel : ∀ (q0 : Fin 16) (q1 : Fin 8), ∃ t : Fin grid0.N, win0_6.index t = ![q0.val, q1.val])

/-- One element of a block: the payload of a block of feature rows `r`, a block of feature rows `s` and the small operands
    whole is the edge weight of the pair of rows. -/
private theorem block_apply (X : S1024x128.Idx → EReal) (W1 : S128x128.Idx → EReal) (B1 W2 : S128.Idx → EReal) (B2 : S1x1.Idx → EReal)
    (x0 : Vec Ideal S64x128 .f32) (x1 x2 : Vec Ideal S128x128 .f32) (x3 x4 : Vec Ideal S128 .f32) (x5 : Vec Ideal S1x1 .f32)
    (r : Fin 64 → Fin 1024) (s : Fin 128 → Fin 1024)
    (h0 : ∀ p d, x0 (ix2 p d) = X (ix2 (r p) d)) (h1 : ∀ q d, x1 (ix2 q d) = X (ix2 (s q) d))
    (h2 : ∀ d h, x2 (ix2 d h) = W1 (ix2 d h)) (h3 : ∀ h, x3 (ix1 h) = B1 (ix1 h)) (h4 : ∀ h, x4 (ix1 h) = W2 (ix1 h))
    (h5 : x5 (ix2 0 0) = B2 (ix2 0 0)) (j : S64x128.Idx) :
    k0_pay1 (F := Ideal) x0 x1 x2 x3 x4 x5 j
      = Cert.Gcn.edge (fun a d => X (ix2 a d)) (fun d h => W1 (ix2 d h)) (fun h => B1 (ix1 h)) (fun h => W2 (ix1 h))
          (B2 (ix2 0 0)) (r (j 0)) (s (j 1)) := by
  obtain ⟨p, q, rfl⟩ : ∃ (p : Fin 64) (q : Fin 128), j = ix2 p q := ⟨j 0, j 1, eq_ix2 j⟩
  rw [Cert.KernelIdeal.PayValue.k0_pay1_apply]
  unfold Cert.Gcn.edge Cert.Gcn.hidden
  simp only [h0, h1, h2, h3, h4, h5]

/-- What point `t` writes back is block `t` of the edge weights. -/
private theorem flushed_eq (c : Dev nD) (t : Fin cfg0.N) :
    (dat0 (F := Ideal) V c).flushed 6 t = ((cfg0.win 6).blk t).view.read (Elt Ideal) (adjOf V c) := by
  show (cfg0.win 6).cut (grid0.coords t) ((dat0 (F := Ideal) V c).after 6 t) = _
  rw [after0_6]
  unfold out0_6
  rw [View.canon_unit_zero hz2]
  simp only [View.ld_unit_zero (S := S64x128) hz2, View.ld_unit_zero (S := S128x128) hz2, View.ld_unit_zero (S := S128) hz1,
    View.ld_unit_zero (S := S1x1) hz2]
  obtain ⟨e00, e01, e10, e11, e20, e21, e3, e4, e50, e51, l0, l1⟩ := idx_facts t
  funext j
  show k0_pay1 (F := Ideal) (iblk0 V c 0 t) (iblk0 V c 1 t) (iblk0 V c 2 t) (iblk0 V c 3 t) (iblk0 V c 4 t) (iblk0 V c 5 t) j
    = adjOf V c (((cfg0.win 6).blk t).view.emb j)
  have hr : ∀ p : Fin 64, win0_6.index t (0 : Fin 2) * 64 + p.val < 1024 := fun p => by have := p.isLt; omega
  have hs : ∀ q : Fin 128, win0_6.index t (1 : Fin 2) * 128 + q.val < 1024 := fun q => by have := q.isLt; omega
  refine (block_apply (V c main_arg0) (V c main_arg1) (V c main_arg2) (V c main_v0) (V c main_v1) _ _ _ _ _ _
    (fun p => ⟨win0_6.index t (0 : Fin 2) * 64 + p.val, hr p⟩) (fun q => ⟨win0_6.index t (1 : Fin 2) * 128 + q.val, hs q⟩)
    ?_ ?_ ?_ ?_ ?_ ?_ j).trans ?_
  · intro p d
    unfold iblk0
    show V c main_arg0 (((cfg0.win 0).blk t).view.emb (ix2 p d)) = _
    refine congrArg (V c main_arg0) (funext fun a => Fin.ext ?_)
    match a with
    | ⟨0, _⟩ => show win0_0.index t (0 : Fin 2) * 64 + 1 * p.val = win0_6.index t (0 : Fin 2) * 64 + p.val; omega
    | ⟨1, _⟩ => show win0_0.index t (1 : Fin 2) * 128 + 1 * d.val = d.val; omega
  · intro q d
    unfold iblk0
    show V c main_arg0 (((cfg0.win 1).blk t).view.emb (ix2 q d)) = _
    refine congrArg (V c main_arg0) (funext fun a => Fin.ext ?_)
    match a with
    | ⟨0, _⟩ => show win0_1.index t (0 : Fin 2) * 128 + 1 * q.val = win0_6.index t (1 : Fin 2) * 128 + q.val; omega
    | ⟨1, _⟩ => show win0_1.index t (1 : Fin 2) * 128 + 1 * d.val = d.val; omega
  · intro d h
    unfold iblk0
    show V c main_arg1 (((cfg0.win 2).blk t).view.emb (ix2 d h)) = _
    refine congrArg (V c main_arg1) (funext fun a => Fin.ext ?_)
    match a with
    | ⟨0, _⟩ => show win0_2.index t (0 : Fin 2) * 128 + 1 * d.val = d.val; omega
    | ⟨1, _⟩ => show win0_2.index t (1 : Fin 2) * 128 + 1 * h.val = h.val; omega
  · intro h
    unfold iblk0
    show V c main_arg2 (((cfg0.win 3).blk t).view.emb (ix1 h)) = _
    refine congrArg (V c main_arg2) (funext fun a => Fin.ext ?_)
    match a with
    | ⟨0, _⟩ => show win0_3.index t (0 : Fin 1) * 128 + 1 * h.val = h.val; omega
  · intro h
    unfold iblk0
    show V c main_v0 (((cfg0.win 4).blk t).view.emb (ix1 h)) = _
    refine congrArg (V c main_v0) (funext fun a => Fin.ext ?_)
    match a with
    | ⟨0, _⟩ => show win0_4.index t (0 : Fin 1) * 128 + 1 * h.val = h.val; omega
  · unfold iblk0
    show V c main_v1 (((cfg0.win 5).blk t).view.emb (ix2 0 0)) = _
    refine congrArg (V c main_v1) (funext fun a => Fin.ext ?_)
    match a with
    | ⟨0, _⟩ => show win0_5.index t (0 : Fin 2) * 1 + 1 * 0 = 0; omega
    | ⟨1, _⟩ => show win0_5.index t (1 : Fin 2) * 1 + 1 * 0 = 0; omega
  · unfold adjOf
    refine congrArg₂ (Cert.Gcn.edge _ _ _ _ _) (Fin.ext ?_) (Fin.ext ?_)
    · show win0_6.index t (0 : Fin 2) * 64 + (j 0).val = win0_6.index t (0 : Fin 2) * 64 + 1 * (j 0).val; omega
    · show win0_6.index t (1 : Fin 2) * 128 + (j 1).val = win0_6.index t (1 : Fin 2) * 128 + 1 * (j 1).val; omega

/-- An index of the matrix is in point `t`'s block iff each coordinate is in the block's range on its axis. -/
private theorem mem_blk (t : Fin cfg0.N) (i : S1024x1024.Idx) :
    i ∈ ((cfg0.win 6).blk t).view.set ↔ ∀ a : Fin 2, win0_6.index t a * S64x128.size a ≤ (i a).val
      ∧ (i a).val < win0_6.index t a * S64x128.size a + S64x128.size a := by
  show i ∈ ((View.whole main_v2).slice (win0_6.rect t)).set ↔ _
  rw [View.set_slice_whole, Rect.mem_set_unit]
  exact Iff.rfl

/-- The 128 blocks tile the matrix: entry `(r, s)` lies in the block of the point with block index `(r / 64, s / 128)`. -/
private theorem cover (i : S1024x1024.Idx) :
    ∃ t : Fin cfg0.N, (cfg0.win 6).flush t = true ∧ i ∈ ((cfg0.win 6).blk t).view.set := by
  have hi0 : (i 0).val < 1024 := (i 0).isLt
  have hi1 : (i 1).val < 1024 := (i 1).isLt
  obtain ⟨t, ht⟩ := idx_onto ⟨(i 0).val / 64, by omega⟩ ⟨(i 1).val / 128, by omega⟩
  have q0 : win0_6.index t (0 : Fin 2) = (i 0).val / 64 := congrFun ht 0
  have q1 : win0_6.index t (1 : Fin 2) = (i 1).val / 128 := congrFun ht 1
  refine ⟨t, flush0_6 t, ?_⟩
  rw [mem_blk]
  intro a
  match a with
  | ⟨0, _⟩ => show win0_6.index t (0 : Fin 2) * 64 ≤ (i 0).val ∧ (i 0).val < win0_6.index t (0 : Fin 2) * 64 + 64; omega
  | ⟨1, _⟩ => show win0_6.index t (1 : Fin 2) * 128 ≤ (i 1).val ∧ (i 1).val < win0_6.index t (1 : Fin 2) * 128 + 128; omega

/-- After the last grid point the weight matrix's buffer holds the edge weights. -/
theorem adj_final (c : Dev nD) : (dat0 (F := Ideal) V c).arrAt 6 cfg0.N = adjOf V c := by
  exact (dat0 (F := Ideal) V c).arrAt_eq_of_cover 6 (adjOf V c) (fun t _ => flushed_eq V c t) cover

end Cert.KernelIdeal.Hand

end
-- ==== Proof.Pay1Value.lean ====
/-
  The graph-convolution kernel's stored value, read at one element of its 1024 by 128 output.
-/
import proofs.«145925_j77386720739714_1_alg».proof.Proof.Gen.KernelIdeal.Skeleton
import proofs.«145925_j77386720739714_1_alg».proof.Proof.Spec
import proofs.«145925_j77386720739714_1_alg».proof.Proof.LibPlainProduct
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.PayValue

open Cert.KernelIdeal Cert.KernelIdeal.Gen Idealize.ShloMosaic Idealize.ShloMosaic.ValueIdx

/-- The sum of a matrix over its second axis, read at row `i`: the row's sum. -/
private theorem rowSum_apply (a : FVec Ideal S1024x1024 .f32) (i : Fin 1024) :
    multiReduction (F := Ideal) .add [1] S1024 a 0x00000000#32 reduces_S1024x1024_S1024 (.inl rfl) rfl (ix1 i)
      = ∑ l : Fin 1024, a (ix2 i l) := by
  refine (Ideal.multiReduction_add_single a _ reduces_S1024x1024_S1024 _ _ (ix1 i)).trans ?_
  refine Finset.sum_congr rfl fun l _ => congrArg a ?_
  funext ax
  match ax with
  | ⟨0, _⟩ => exact Fin.ext rfl
  | ⟨1, _⟩ => exact Fin.ext rfl

/-- The sum of a matrix over its first axis, read at column `j`: the column's sum. -/
private theorem colSum_apply (a : FVec Ideal S1024x1024 .f32) (j : Fin 1024) :
    multiReduction (F := Ideal) .add [0] S1024 a 0x00000000#32 reduces_S1024x1024_S1024_2 (.inl rfl) rfl (ix1 j)
      = ∑ l : Fin 1024, a (ix2 l j) := by
  refine (Ideal.multiReduction_add_single a _ reduces_S1024x1024_S1024_2 _ _ (ix1 j)).trans ?_
  refine Finset.sum_congr rfl fun l _ => congrArg a ?_
  funext ax
  match ax with
  | ⟨0, _⟩ => exact Fin.ext rfl
  | ⟨1, _⟩ => exact Fin.ext rfl

/-- An `[n]` array cast to `[n, 1]` reads, at `(i, u)`, the operand at `i`, whatever the unit coordinate `u`. -/
private theorem shapeCast_a_a1_apply {α : Type} {n : ℕ} (x : (⟨1, ![n]⟩ : Shape).Idx → α)
    (h : (⟨1, ![n]⟩ : Shape).ShapeCasts ⟨2, ![n, 1]⟩) (i : Fin n) (u : Fin 1) :
    shapeCast ⟨2, ![n, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at `p`. -/
private theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The normalised weight matrix read at `(i, k)`: the entry scaled by the inverse square roots of its row's sum on the
    left and of its column's sum on the right. -/
private theorem norm_apply (a : FVec Ideal S1024x1024 .f32) (i k : Fin 1024) :
    mulf (mulf (broadcastTo S1024x1024 (rsqrt (shapeCast S1024x1
            (multiReduction (F := Ideal) .add [1] S1024 a 0x00000000#32 reduces_S1024x1024_S1024 (.inl rfl) rfl)
            shapeCasts_S1024_S1024x1)) broadcasts_S1024x1_S1024x1024) a)
        (broadcastTo S1024x1024 (rsqrt (shapeCast S1x1024
            (multiReduction (F := Ideal) .add [0] S1024 a 0x00000000#32 reduces_S1024x1024_S1024_2 (.inl rfl) rfl)
            shapeCasts_S1024_S1x1024)) broadcasts_S1x1024_S1024x1024) (ix2 i k)
      = (Ideal.rsqrt (∑ l : Fin 1024, a (ix2 i l)) * a (ix2 i k)) * Ideal.rsqrt (∑ l : Fin 1024, a (ix2 l k)) := by
  show (broadcastTo S1024x1024 (rsqrt (shapeCast S1024x1 _ _)) _ (ix2 i k) * a (ix2 i k))
      * broadcastTo S1024x1024 (rsqrt (shapeCast S1x1024 _ _)) _ (ix2 i k) = _
  rw [broadcastTo_a1_ab_apply, broadcastTo_1b_ab_apply]
  show (Ideal.rsqrt (shapeCast S1024x1 _ _ (ix2 i (0 : Fin 1))) * a (ix2 i k))
      * Ideal.rsqrt (shapeCast S1x1024 _ _ (ix2 (0 : Fin 1) k)) = _
  rw [shapeCast_a_a1_apply, shapeCast_a_1a_apply, rowSum_apply, colSum_apply]

/-- The closing comparison with the zero word and the choice between a value and its multiple by the word of `0.2`, read
    at an index: the leaky rectifier of the element. -/
private theorem leaky_apply (v : FVec Ideal S1024x128 .f32) (idx : S1024x128.Idx) :
    select (cmpf .ogt v (broadcast S1024x128 (Scalar.ofBits (F := Ideal) .f32 0x00000000#32))) v
        (mulf (broadcast S1024x128 (Scalar.ofBits (F := Ideal) .f32 0x3E4CCCCD#32)) v) idx
      = Cert.Gcn.leaky (v idx) := rfl

/-- Element `(i, j)` of what the body stores, from the weight matrix `a`, the features `x`, the projection `wg` and the bias
    `bg`: the graph convolution with the ROW degree on the left and the COLUMN degree on the right. -/
theorem k1_pay1_apply (a : Vec Ideal S1024x1024 .f32) (x : Vec Ideal S1024x128 .f32) (wg : Vec Ideal S128x128 .f32)
    (bg : Vec Ideal S128 .f32) (i : Fin 1024) (j : Fin 128) :
    k1_pay1 (F := Ideal) a x wg bg (ix2 i j)
      = Cert.Gcn.gcn (fun k d => x (ix2 k d)) (Cert.Gcn.degRow fun p q => a (ix2 p q)) (Cert.Gcn.degCol fun p q => a (ix2 p q))
          (fun p q => a (ix2 p q)) (fun d j => wg (ix2 d j)) (fun j => bg (ix1 j)) i j := by
  unfold k1_pay1
  rw [shapeCast_self]
  refine (leaky_apply _ _).trans ?_
  unfold Cert.Gcn.gcn
  refine congrArg Cert.Gcn.leaky ?_
  refine congrArg₂ (· + ·) ?_ ?_
  · -- the outer product, at `(i, j)`, is the sum over `k` of the normalised weight times the projected feature
    refine (PlainProduct.matmul_zero_apply dot_S1024x1024_S1024x128_S1024x128_1_0_0_1_n_n rfl rfl
      (fun _ _ => rfl) (fun _ _ => rfl) (fun _ _ => rfl) (fun _ _ => rfl) none _ _ i j).trans ?_
    refine Finset.sum_congr rfl fun k _ => ?_
    refine congrArg₂ (· * ·) ?_ ?_
    · exact norm_apply a i k
    · exact PlainProduct.matmul_zero_apply dot_S1024x128_S128x128_S1024x128_1_0_0_1_n_n rfl rfl
        (fun _ _ => rfl) (fun _ _ => rfl) (fun _ _ => rfl) (fun _ _ => rfl) none _ _ k j
  · -- the bias row broadcast over the rows reads the bias at `j`
    exact (broadcastTo_1b_ab_apply _ _ i j).trans (shapeCast_a_1a_apply bg _ 0 j)

end Cert.KernelIdeal.PayValue

end
-- ==== Proof.Out.lean ====
import proofs.«145925_j77386720739714_1_alg».proof.Proof.Gen.KernelIdeal.Launch
import proofs.«145925_j77386720739714_1_alg».proof.Proof.Gen.KernelIdeal.Skeleton
import proofs.«145925_j77386720739714_1_alg».proof.Proof.Gen.KernelIdeal.Points
import proofs.«145925_j77386720739714_1_alg».proof.Proof.Dat1
import proofs.«145925_j77386720739714_1_alg».proof.Proof.Pay1Value
import Idealize.ShloMosaic.Lib.Pipeline.Value
import Idealize.ShloMosaic.Lib.ValueIdx
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

/-! # The output the graph-convolution region leaves, index by index

  The region has one grid point; every window's block is its whole array, so the output array after the run is the
  body's stored value of the four input arrays. -/

variable (V : (c : Dev nD) → (b : Ref sig .tc) → Buf (Elt Ideal) ((c : Thread nD τ).loc b))

/-- The graph convolution of the arrays the region is entered with: row degree on the left, column degree on the right. -/
def outOf (c : Dev nD) : S1024x128.Idx → EReal := fun i =>
  Cert.Gcn.gcn (fun k d => (V c main_arg0 : S1024x128.Idx → EReal) (ix2 k d))
    (Cert.Gcn.degRow fun p q => (V c main_v2 : S1024x1024.Idx → EReal) (ix2 p q))
    (Cert.Gcn.degCol fun p q => (V c main_v2 : S1024x1024.Idx → EReal) (ix2 p q))
    (fun p q => (V c main_v2 : S1024x1024.Idx → EReal) (ix2 p q))
    (fun d j => (V c main_arg5 : S128x128.Idx → EReal) (ix2 d j)) (fun j => (V c main_arg6 : S128.Idx → EReal) (ix1 j)) (i 0) (i 1)

private theorem hz2 : (![0, 0] : Fin 2 → Nat) = fun _ => 0 := funext fun a => by fin_cases a <;> rfl
private theorem hz1 : (![0] : Fin 1 → Nat) = fun _ => 0 := funext fun a => by fin_cases a; rfl

/-- The printed index maps, decided over the one-point grid: every window's block index is zero on every axis. -/
private theorem idx_facts : ∀ t : Fin cfg1.N,
    win1_0.index t (0 : Fin 2) = 0 ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 1) = 0
    ∧ win1_4.index t (0 : Fin 2) = 0 ∧ win1_4.index t (1 : Fin 2) = 0 :=
  (by decide +kernel : ∀ t : Fin grid1.N, _)

/-- The weight matrix's one block is the whole array: a block index is the array index. -/
private theorem emb0 (t : Fin cfg1.N) (y : S1024x1024.Idx) : ((cfg1.win 0).blk t).view.emb y = y := by
  obtain ⟨e0, e1, -⟩ := idx_facts t
  funext a; apply Fin.ext
  match a with
  | ⟨0, _⟩ => show win1_0.index t (0 : Fin 2) * 1024 + 1 * (y 0).val = (y 0).val; omega
  | ⟨1, _⟩ => show win1_0.index t (1 : Fin 2) * 1024 + 1 * (y 1).val = (y 1).val; omega

/-- The features' one block is the whole array. -/
private theorem emb1 (t : Fin cfg1.N) (y : S1024x128.Idx) : ((cfg1.win 1).blk t).view.emb y = y := by
  obtain ⟨-, -, e0, e1, -⟩ := idx_facts t
  funext a; apply Fin.ext
  match a with
  | ⟨0, _⟩ => show win1_1.index t (0 : Fin 2) * 1024 + 1 * (y 0).val = (y 0).val; omega
  | ⟨1, _⟩ => show win1_1.index t (1 : Fin 2) * 128 + 1 * (y 1).val = (y 1).val; omega

/-- The projection's one block is the whole array. -/
private theorem emb2 (t : Fin cfg1.N) (y : S128x128.Idx) : ((cfg1.win 2).blk t).view.emb y = y := by
  obtain ⟨-, -, -, -, e0, e1, -⟩ := idx_facts t
  funext a; apply Fin.ext
  match a with
  | ⟨0, _⟩ => show win1_2.index t (0 : Fin 2) * 128 + 1 * (y 0).val = (y 0).val; omega
  | ⟨1, _⟩ => show win1_2.index t (1 : Fin 2) * 128 + 1 * (y 1).val = (y 1).val; omega

/-- The bias's one block is the whole array. -/
private theorem emb3 (t : Fin cfg1.N) (y : S128.Idx) : ((cfg1.win 3).blk t).view.emb y = y := by
  obtain ⟨-, -, -, -, -, -, e0, -⟩ := idx_facts t
  funext a; apply Fin.ext
  match a with
  | ⟨0, _⟩ => show win1_3.index t (0 : Fin 1) * 128 + 1 * (y 0).val = (y 0).val; omega

/-- The output's one block is the whole array. -/
private theorem emb4 (t : Fin cfg1.N) (y : S1024x128.Idx) : ((cfg1.win 4).blk t).view.emb y = y := by
  obtain ⟨-, -, -, -, -, -, -, e0, e1⟩ := idx_facts t
  funext a; apply Fin.ext
  match a with
  | ⟨0, _⟩ => show win1_4.index t (0 : Fin 2) * 1024 + 1 * (y 0).val = (y 0).val; omega
  | ⟨1, _⟩ => show win1_4.index t (1 : Fin 2) * 128 + 1 * (y 1).val = (y 1).val; omega

/-- Each input block, read at an index, is its array as the region finds it, at that index. -/
private theorem iblk0_apply (c : Dev nD) (t : Fin cfg1.N) (y : S1024x1024.Idx) :
    iblk1 (F := Ideal) V c 0 t y = (V c main_v2 : S1024x1024.Idx → EReal) y := by
  show (V c main_v2 : S1024x1024.Idx → EReal) (((cfg1.win 0).blk t).view.emb y) = _
  rw [emb0]
private theorem iblk1_apply (c : Dev nD) (t : Fin cfg1.N) (y : S1024x128.Idx) :
    iblk1 (F := Ideal) V c 1 t y = (V c main_arg0 : S1024x128.Idx → EReal) y := by
  show (V c main_arg0 : S1024x128.Idx → EReal) (((cfg1.win 1).blk t).view.emb y) = _
  rw [emb1]
private theorem iblk2_apply (c : Dev nD) (t : Fin cfg1.N) (y : S128x128.Idx) :
    iblk1 (F := Ideal) V c 2 t y = (V c main_arg5 : S128x128.Idx → EReal) y := by
  show (V c main_arg5 : S128x128.Idx → EReal) (((cfg1.win 2).blk t).view.emb y) = _
  rw [emb2]
private theorem iblk3_apply (c : Dev nD) (t : Fin cfg1.N) (y : S128.Idx) :
    iblk1 (F := Ideal) V c 3 t y = (V c main_arg6 : S128.Idx → EReal) y := by
  show (V c main_arg6 : S128.Idx → EReal) (((cfg1.win 3).blk t).view.emb y) = _
  rw [emb3]

/-- What the one grid point writes back is the graph convolution of the arrays the region is entered with, read through
    the output's block. -/
private theorem flushed_eq (c : Dev nD) (t : Fin cfg1.N) :
    (dat1 (F := Ideal) V c).flushed 4 t = ((cfg1.win 4).blk t).view.read (Elt Ideal) (outOf V c) := by
  show (cfg1.win 4).cut (grid1.coords t) ((dat1 (F := Ideal) V c).after 4 t) = _
  rw [after1_4]
  unfold out1_4
  rw [View.canon_unit_zero hz2]
  simp only [View.ld_unit_zero (S := S1024x1024) hz2, View.ld_unit_zero (S := S1024x128) hz2,
    View.ld_unit_zero (S := S128x128) hz2, View.ld_unit_zero (S := S128) hz1]
  refine funext fun (y : S1024x128.Idx) => ?_
  obtain ⟨p, q, rfl⟩ : ∃ p q, y = ix2 p q := ⟨y 0, y 1, eq_ix2 y⟩
  show k1_pay1 (F := Ideal) (iblk1 V c 0 t) (iblk1 V c 1 t) (iblk1 V c 2 t) (iblk1 V c 3 t) (ix2 p q)
    = outOf V c (((cfg1.win 4).blk t).view.emb (ix2 p q))
  rw [emb4, PayValue.k1_pay1_apply]
  unfold outOf
  have h0 : (fun p q => iblk1 (F := Ideal) V c 0 t (ix2 p q))
      = fun p q => (V c main_v2 : S1024x1024.Idx → EReal) (ix2 p q) :=
    funext fun p => funext fun q => iblk0_apply V c t (ix2 p q)
  have h1 : (fun k d => iblk1 (F := Ideal) V c 1 t (ix2 k d))
      = fun k d => (V c main_arg0 : S1024x128.Idx → EReal) (ix2 k d) :=
    funext fun k => funext fun d => iblk1_apply V c t (ix2 k d)
  have h2 : (fun d j => iblk1 (F := Ideal) V c 2 t (ix2 d j))
      = fun d j => (V c main_arg5 : S128x128.Idx → EReal) (ix2 d j) :=
    funext fun d => funext fun j => iblk2_apply V c t (ix2 d j)
  have h3 : (fun j => iblk1 (F := Ideal) V c 3 t (ix1 j))
      = fun j => (V c main_arg6 : S128.Idx → EReal) (ix1 j) :=
    funext fun j => iblk3_apply V c t (ix1 j)
  rw [h0, h1, h2, h3]

/-- Every index of the output array lies in the one point's block. -/
private theorem cover (i : S1024x128.Idx) :
    ∃ t : Fin cfg1.N, (cfg1.win 4).flush t = true ∧ i ∈ ((cfg1.win 4).blk t).view.set := by
  refine ⟨t1_0, flush1_4 t1_0, ?_⟩
  obtain ⟨-, -, -, -, -, -, -, e0, e1⟩ := idx_facts t1_0
  show i ∈ ((View.whole main_v3).slice (win1_4.rect t1_0)).set
  rw [View.set_slice_whole, Rect.mem_set_unit]
  intro a
  match a with
  | ⟨0, _⟩ =>
    show win1_4.index t1_0 (0 : Fin 2) * 1024 ≤ (i 0).val ∧ (i 0).val < win1_4.index t1_0 (0 : Fin 2) * 1024 + 1024
    have hi : (i 0).val < 1024 := (i 0).isLt; omega
  | ⟨1, _⟩ =>
    show win1_4.index t1_0 (1 : Fin 2) * 128 ≤ (i 1).val ∧ (i 1).val < win1_4.index t1_0 (1 : Fin 2) * 128 + 128
    have hi : (i 1).val < 128 := (i 1).isLt; omega

/-- After the one grid point the output's buffer holds the graph convolution. -/
theorem out_final (c : Dev nD) : (dat1 (F := Ideal) V c).arrAt 4 cfg1.N = outOf V c := by
  exact (dat1 (F := Ideal) V c).arrAt_eq_of_cover 4 (outOf V c) (fun t _ => flushed_eq V c t) cover

end Cert.KernelIdeal.Hand

end
-- ==== Proof.Bridge.lean ====
import proofs.«145925_j77386720739714_1_alg».proof.Proof.Gen.KernelIdeal.Launch
import proofs.«145925_j77386720739714_1_alg».proof.Proof.Gen.KernelIdeal.Skeleton
import proofs.«145925_j77386720739714_1_alg».proof.Proof.Gen.KernelIdeal.Points
import proofs.«145925_j77386720739714_1_alg».proof.Proof.Vals
import proofs.«145925_j77386720739714_1_alg».proof.Proof.HostVals
import proofs.«145925_j77386720739714_1_alg».proof.Proof.Adj
import proofs.«145925_j77386720739714_1_alg».proof.Proof.Out
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

/-! # The two results after the run as functions of the launch memory

  The weight matrix ends at the edge weights of the launched arrays. The output ends at the graph convolution over that
  matrix with its row degree on the left and its COLUMN degree on the right; the matrix being symmetric, the column degree
  is the row degree. -/

variable (m : (ℓ : Loc nD τ sig) → Buf (Elt Ideal) ℓ)

/-- The edge weights of the launched arrays. -/
def E (c : Dev nD) : Fin 1024 → Fin 1024 → EReal :=
  Cert.Gcn.edge (fun p d => (m ((c : Thread nD τ).loc main_arg0) : S1024x128.Idx → EReal) (ix2 p d))
    (fun d h => (m ((c : Thread nD τ).loc main_arg1) : S128x128.Idx → EReal) (ix2 d h))
    (fun h => (m ((c : Thread nD τ).loc main_arg2) : S128.Idx → EReal) (ix1 h))
    (fun h => (m ((c : Thread nD τ).loc main_arg3) : S128x1.Idx → EReal) (ix2 h 0))
    ((m ((c : Thread nD τ).loc main_arg4) : S1.Idx → EReal) (ix1 0))

/-- The weight matrix after the run. -/
theorem adj_result (c : Dev nD) : (V3 m c main_v2 : S1024x1024.Idx → EReal) = fun i => E m c (i 0) (i 1) := by
  rw [V3_of_ne m c main_v2 (by decide), V2_main_v2]
  show (dat0 (F := Ideal) (V1 m) c).arrAt 6 cfg0.N = _
  rw [adj_final]
  funext i
  unfold adjOf E
  rw [V1_of m c main_arg0 (by decide), V1_of m c main_arg1 (by decide), V1_of m c main_arg2 (by decide)]
  exact congrArg₂ (fun (a : Fin 128 → EReal) (b : EReal) => Cert.Gcn.edge _ _ _ a b (i 0) (i 1))
    (funext fun h => V1_main_v0_apply m c h) (V1_main_v1_apply m c)

/-- The output after the run: the graph convolution with the row degree on both sides. -/
theorem out_result (c : Dev nD) : (V3 m c main_v3 : S1024x128.Idx → EReal) = fun i =>
    Cert.Gcn.gcn (fun k d => (m ((c : Thread nD τ).loc main_arg0) : S1024x128.Idx → EReal) (ix2 k d))
      (Cert.Gcn.degRow (E m c)) (Cert.Gcn.degRow (E m c)) (E m c)
      (fun d j => (m ((c : Thread nD τ).loc main_arg5) : S128x128.Idx → EReal) (ix2 d j))
      (fun j => (m ((c : Thread nD τ).loc main_arg6) : S128.Idx → EReal) (ix1 j)) (i 0) (i 1) := by
  rw [V3_main_v3]
  show (dat1 (F := Ideal) (V2 m) c).arrAt 4 cfg1.N = _
  rw [out_final]
  funext i
  unfold outOf
  have hA : (fun p q => (V2 m c main_v2 : S1024x1024.Idx → EReal) (ix2 p q)) = E m c := by
    have h := adj_result m c
    rw [V3_of_ne m c main_v2 (by decide)] at h
    funext p q
    exact congrFun h (ix2 p q)
  rw [hA, V2_of_ne m c main_arg0 (by decide), V2_of_ne m c main_arg5 (by decide), V2_of_ne m c main_arg6 (by decide),
    V1_of m c main_arg0 (by decide), V1_of m c main_arg5 (by decide), V1_of m c main_arg6 (by decide),
    Cert.Gcn.degCol_eq_degRow (E m c) (fun i j => Cert.Gcn.edge_symm _ _ _ _ _ i j)]

end Cert.KernelIdeal.Hand

end
-- ==== Proof.RefBridge.lean ====
/-
  The reference's two results are the kernel's: both are the edge weights of the launched arrays and the graph
  convolution over them with the row degree on both sides.
-/
import proofs.«145925_j77386720739714_1_alg».proof.Proof.RefValue
import proofs.«145925_j77386720739714_1_alg».proof.Proof.Bridge

noncomputable section

namespace Cert.Proof.Join

open Idealize.ShloMosaic Idealize.ShloMosaic.TcCoe Idealize.SL.Sem Idealize.ShloMosaic.ValueIdx

variable (m : (ℓ : Loc Cert.KernelIdeal.nD Cert.KernelIdeal.τ Cert.KernelIdeal.sig) → Buf (Elt Ideal) ℓ)

/-- The reference's weight matrix, entry by entry, is the edge weights of the launched arrays. -/
theorem ref_adj (c : Dev Cert.KernelIdeal.nD) :
    (fun p q : Fin 1024 => Cert.ReferenceIdeal.Read.val_main_v21 (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4)) (ix2 p q))
      = Cert.KernelIdeal.Hand.E m c :=
  funext fun p => funext fun q => Cert.ReferenceIdeal.RefValue.adj_apply _ _ _ _ _ p q

/-- The reference's weight matrix, from arrays equal to the kernel's launched ones, is the kernel's. -/
theorem adj_eq (c : Dev Cert.KernelIdeal.nD) :
    Cert.ReferenceIdeal.Read.val_main_v21 (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
      = Cert.KernelIdeal.Hand.V3 m c Cert.KernelIdeal.main_v2 := by
  rw [Cert.KernelIdeal.Hand.adj_result]
  funext i
  obtain ⟨p, q, rfl⟩ : ∃ (p : Fin 1024) (q : Fin 1024), i = ix2 p q := ⟨i 0, i 1, eq_ix2 i⟩
  exact congrFun (congrFun (ref_adj m c) p) q

/-- The graph convolution depends on the weight matrix only through its entries. -/
theorem gcn_congr (X : Fin 1024 → Fin 128 → EReal) (A B : Fin 1024 → Fin 1024 → EReal) (h : A = B)
    (Wg : Fin 128 → Fin 128 → EReal) (bg : Fin 128 → EReal) (p : Fin 1024) (q : Fin 128) :
    Cert.Gcn.gcn X (Cert.Gcn.degRow A) (Cert.Gcn.degRow A) A Wg bg p q = Cert.Gcn.gcn X (Cert.Gcn.degRow B) (Cert.Gcn.degRow B) B Wg bg p q := by
  rw [h]

/-- The reference's output likewise. -/
theorem out_eq (c : Dev Cert.KernelIdeal.nD) :
    Cert.ReferenceIdeal.Read.val_main_v39 (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6))
      = Cert.KernelIdeal.Hand.V3 m c Cert.KernelIdeal.main_v3 := by
  rw [Cert.KernelIdeal.Hand.out_result]
  funext i
  obtain ⟨p, q, rfl⟩ : ∃ (p : Fin 1024) (q : Fin 128), i = ix2 p q := ⟨i 0, i 1, eq_ix2 i⟩
  refine (Cert.ReferenceIdeal.RefValue.out_apply _ _ _ _ _ _ _ p q).trans ?_
  exact gcn_congr _ _ _ (ref_adj m c) _ _ p q

end Cert.Proof.Join

end
-- ==== Proof.lean ====
/-
  The certificate of the dynamic graph-convolution layer.

  Both programs compute, from node features `x : [1024, 128]`, a dense matrix of edge weights — for every ordered pair of
  nodes the logistic of a two-layer perceptron applied to the coordinatewise distance `|x i - x j|` — and then one
  graph-convolution step over it: the matrix scaled by the inverse square roots of a left and a right degree, times the
  projected features `x · Wg`, plus a bias, through a leaky rectifier. The kernel takes the left degree from the row sums
  and the right degree from the COLUMN sums of the matrix; the reference takes both from the row sums. The distance is
  symmetric in its two arguments on all extended reals, so the matrix is symmetric, its column sums are its row sums, and
  the two programs agree element by element.

  The kernel's program runs two regions one after the other: the edge weights, tile by tile over a 16 by 8 grid with the
  feature array read through two windows at once, and the convolution in one grid point. Its frame — the run ends, nothing
  faults, the arguments are untouched — is proved once for any float instance and read at the word-level and at the ideal
  one; the values are read off the same run at the ideal instance.
-/
import proofs.«145925_j77386720739714_1_alg».proof.Defs
import proofs.«145925_j77386720739714_1_alg».proof.Proof.Gen.Kernel
import proofs.«145925_j77386720739714_1_alg».proof.Proof.Gen.KernelIdeal
import proofs.«145925_j77386720739714_1_alg».proof.Proof.Gen.ReferenceIdeal
import proofs.«145925_j77386720739714_1_alg».proof.Proof.Gen.Pre_finite_inputs
import proofs.«145925_j77386720739714_1_alg».proof.Proof.Gen.ReferenceIdeal.Run
import proofs.«145925_j77386720739714_1_alg».proof.Proof.Gen.ReferenceIdeal.Read
import proofs.«145925_j77386720739714_1_alg».proof.Proof.KFrames
import proofs.«145925_j77386720739714_1_alg».proof.Proof.Frames
import proofs.«145925_j77386720739714_1_alg».proof.Proof.RefBridge
import Idealize.ShloMosaic.Adequacy
import Idealize.ShloMosaic.Init

noncomputable section

namespace Cert.Proof

open Idealize.ShloMosaic Idealize.SL.Sem

/-- The word-level program runs to the end and leaves its arguments as launched. -/
theorem frame_k : Cert.frame_Kernel (hKernel := Cert.Kernel.Gen.facts) (hPre_finite_inputs := Cert.Pre_finite_inputs.Gen.facts) :=
  fun m ρ _ => Cert.Kernel.Hand.frame (F := Bits) m ρ

/-- So does the idealized program. -/
theorem frame_ki : Cert.frame_KernelIdeal (hKernelIdeal := Cert.KernelIdeal.Gen.facts) (hPre_finite_inputs := Cert.Pre_finite_inputs.Gen.facts) :=
  fun m ρ _ => Cert.KernelIdeal.Hand.frame (F := Ideal) m ρ

/-- The reference's frame is its run with the results dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2) (Cert.ReferenceIdeal.Value.run (F := Ideal) m ρ)

/-- The two idealized programs, from memories agreeing on the arguments, end with the same two results: the graph
    convolution with the row degree on both sides, and the symmetric matrix of edge weights. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Hand.V3 m c Cert.KernelIdeal.main_v3, fun c => Cert.KernelIdeal.Hand.V3 m c Cert.KernelIdeal.main_v2,
    Cert.KernelIdeal.Hand.results (F := Ideal) m ρ, ?_⟩
  refine (θ_run Cert.ReferenceIdeal.defs _ _).mono (fun r h c => ⟨(h c).1.trans ?_, (h c).2.1.trans ?_, (h c).2.2⟩)
    (Cert.ReferenceIdeal.Value.run (F := Ideal) m' ρ')
  · rw [Cert.ReferenceIdeal.Read.val_main_v39_eq, (hagree c).1, (hagree c).2.1, (hagree c).2.2.1, (hagree c).2.2.2.1,
      (hagree c).2.2.2.2.1, (hagree c).2.2.2.2.2.1, (hagree c).2.2.2.2.2.2]
    exact Cert.Proof.Join.out_eq m c
  · rw [Cert.ReferenceIdeal.Read.val_main_v21_eq, (hagree c).1, (hagree c).2.1, (hagree c).2.2.1, (hagree c).2.2.2.1,
      (hagree c).2.2.2.2.1]
    exact Cert.Proof.Join.adj_eq m c

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
